-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x600000 : S_.BroadcastsInDim S2x600000 (![] : Fin 0 → Fin S2x600000.rank)
  reducesTo_S2x600000_S_d0_1 : S2x600000.ReducesTo [0, 1] S_

variable [Facts]

def fn_part2 {F : FTy → Type} [FloatOps F] (main_arg1 : IVec S2x600000 32) (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S2x600000 32 := broadcastInDim S2x600000 ![] bcast_S_S2x600000 main_c_16
  let main_v45 : IVec S2x600000 1 := cmpi .sge main_arg1 main_v44
  let main_c_17 : IVec S_ 32 := constantI S_ 32 50000#32
  let main_v46 : IVec S2x600000 32 := broadcastInDim S2x600000 ![] bcast_S_S2x600000 main_c_17
  let main_v47 : IVec S2x600000 1 := cmpi .slt main_arg1 main_v46
  let main_v48 : IVec S2x600000 1 := andi main_v45 main_v47
  let main_c_18 : IVec S_ 1 := constantI S_ 1 1#1
  let main_v49 : IVec S_ 1 := (fun x v => Host.reduce IntOp.andi x v reducesTo_S2x600000_S_d0_1 h_S_) main_v48 main_c_18
  let main_v50 : IVec S_ 1 := andi main_v43 main_v49
  main_v50

def fn_part1 {F : FTy → Type} [FloatOps F] (main_arg1 : IVec S2x600000 32) (main_arg5 : FVec F S128 .f32) (main_arg6 : FVec F S256x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x600000 32) (main_arg2 : FVec F S256x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S1x128 : Shape := ⟨2, ![1, 128]⟩
abbrev S6000x128 : Shape := ⟨2, ![6000, 128]⟩
abbrev S5000x128 : Shape := ⟨2, ![5000, 128]⟩

abbrev nBuf : Space → Nat
  | .hbm => 77
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S1, .i32⟩
  | .hbm, ⟨23, _⟩ => ⟨S_, .i32⟩
  | .hbm, ⟨24, _⟩ => ⟨S600000x1, .i32⟩
  | .hbm, ⟨25, _⟩ => ⟨S600000x1, .i1⟩
  | .hbm, ⟨26, _⟩ => ⟨S1x1, .i32⟩
  | .hbm, ⟨27, _⟩ => ⟨S600000x1, .i32⟩
  | .hbm, ⟨28, _⟩ => ⟨S600000x1, .i1⟩
  | .hbm, ⟨29, _⟩ => ⟨S600000x1, .i1⟩
  | .hbm, ⟨30, _⟩ => ⟨S_, .i1⟩
  | .hbm, ⟨31, _⟩ => ⟨S600000, .i1⟩
  | .hbm, ⟨32, _⟩ => ⟨S600000x128, .f32⟩
  | .hbm, ⟨33, _⟩ => ⟨S600000x128, .i1⟩
  | .hbm, ⟨34, _⟩ => ⟨S_, .f32⟩
  | .hbm, ⟨35, _⟩ => ⟨S600000x128, .f32⟩
  | .hbm, ⟨36, _⟩ => ⟨S600000x128, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S1, .i32⟩
  | .hbm, ⟨46, _⟩ => ⟨S_, .i32⟩
  | .hbm, ⟨47, _⟩ => ⟨S600000x1, .i32⟩
  | .hbm, ⟨48, _⟩ => ⟨S600000x1, .i1⟩
  | .hbm, ⟨49, _⟩ => ⟨S1x1, .i32⟩
  | .hbm, ⟨50, _⟩ => ⟨S600000x1, .i32⟩
  | .hbm, ⟨51, _⟩ => ⟨S600000x1, .i1⟩
  | .hbm, ⟨52, _⟩ => ⟨S600000x1, .i1⟩
  | .hbm, ⟨53, _⟩ => ⟨S_, .i1⟩
  | .hbm, ⟨54, _⟩ => ⟨S600000, .i1⟩
  | .hbm, ⟨55, _⟩ => ⟨S600000x128, .f32⟩
  | .hbm, ⟨56, _⟩ => ⟨S600000x128, .i1⟩
  | .hbm, ⟨57, _⟩ => ⟨S_, .f32⟩
  | .hbm, ⟨58, _⟩ => ⟨S600000x128, .f32⟩
  | .hbm, ⟨59, _⟩ => ⟨S600000x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S1x128, .f32⟩
  | .hbm, ⟨64, _⟩ => ⟨S600000x128, .f32⟩
  | .hbm, ⟨65, _⟩ => ⟨S_, .f32⟩
  | .hbm, ⟨66, _⟩ => ⟨S50000x128, .f32⟩
  | .hbm, ⟨67, _⟩ => ⟨S600000x1, .i32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S128x128, .f32⟩
  | .hbm, ⟨73, _⟩ => ⟨S128x128, .f32⟩
  | .hbm, ⟨74, _⟩ => ⟨S1x128, .f32⟩
  | .hbm, ⟨75, _⟩ => ⟨S1x128, .f32⟩
  | .hbm, ⟨76, _⟩ => ⟨S50000x128, .f32⟩
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S6000x128, .f32⟩
  | .local _ .vmem, ⟨10, _⟩ => ⟨S6000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_cst : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_cst_0 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  slices_S256x128_S128x128_0_0 : S256x128.Slices ![0, 0] S128x128
  slices_S256x128_S128x128_128_0 : S256x128.Slices ![128, 0] S128x128
  shapeCasts_S128_S1x128 : S128.ShapeCasts S1x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  dot_S6000x128_S128x128_S6000x128_1_0_0_1_n_n_wf : DotDims.WF S6000x128 S128x128 S6000x128 [1] [0] [0] [1] [] []
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .f32 = 32 ∨ (Rect.block (s := S600000x128) S6000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6000x128.size a ≤ S600000x128.size a
  hwx0_7 : ∀ i : grid0.Coords, EltTy.bits .f32 = 32 ∨ (Rect.block (s := S600000x128) S6000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S6000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S1x128 : Shape := ⟨2, ![1, 128]⟩
abbrev S50000x256 : Shape := ⟨2, ![50000, 256]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S600000x256, .f32⟩
  | .hbm, ⟨33, _⟩ => ⟨S600000x128, .f32⟩
  | .hbm, ⟨34, _⟩ => ⟨S1x128, .f32⟩
  | .hbm, ⟨35, _⟩ => ⟨S600000x128, .f32⟩
  | .hbm, ⟨36, _⟩ => ⟨S600000x128, .f32⟩
  | .hbm, ⟨37, _⟩ => ⟨S600000x128, .f32⟩
  | .hbm, ⟨38, _⟩ => ⟨S600000x128, .f32⟩
  | .hbm, ⟨39, _⟩ => ⟨S_, .f32⟩
  | .hbm, ⟨40, _⟩ => ⟨S600000x128, .f32⟩
  | .hbm, ⟨41, _⟩ => ⟨S600000x128, .f32⟩
  | .hbm, ⟨42, _⟩ => ⟨S_, .f32⟩
  | .hbm, ⟨43, _⟩ => ⟨S600000x128, .f32⟩
  | .hbm, ⟨44, _⟩ => ⟨S600000x128, .f32⟩
  | .hbm, ⟨45, _⟩ => ⟨S600000x128, .f32⟩
  | .hbm, ⟨46, _⟩ => ⟨S600000x128, .f32⟩
  | .hbm, ⟨47, _⟩ => ⟨S1x128, .f32⟩
  | .hbm, ⟨48, _⟩ => ⟨S600000x128, .f32⟩
  | .hbm, ⟨49, _⟩ => ⟨S600000x128, .f32⟩
  | .hbm, ⟨50, _⟩ => ⟨S600000x128, .f32⟩
  | .hbm, ⟨51, _⟩ => ⟨S600000x128, .f32⟩
  | .hbm, ⟨52, _⟩ => ⟨S_, .f32⟩
  | .hbm, ⟨53, _⟩ => ⟨S600000x128, .f32⟩
  | .hbm, ⟨54, _⟩ => ⟨S600000x128, .f32⟩
  | .hbm, ⟨55, _⟩ => ⟨S_, .f32⟩
  | .hbm, ⟨56, _⟩ => ⟨S600000x128, .f32⟩
  | .hbm, ⟨57, _⟩ => ⟨S600000x128, .f32⟩
  | .hbm, ⟨58, _⟩ => ⟨S600000x128, .f32⟩
  | .hbm, ⟨59, _⟩ => ⟨S_, .f32⟩
  | .hbm, ⟨60, _⟩ => ⟨S50000x128, .f32⟩
  | .hbm, ⟨61, _⟩ => ⟨S600000x1, .i32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x256, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v28 : Ref sig .tc := ⟨.hbm, 58, rfl⟩
abbrev main_cst : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_3 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_call2_v5 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x256_S256x128_S600000x128_1_0_0_1_n_n_wf : DotDims.WF S600000x256 S256x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KTerms.lean ====
/-
  The host-side values of the idealized kernel's @main, named once: the two rows of the edge list, a gather of the rows of
  the feature table at a vector of node ids (with and without jnp.take's out-of-range fill), the two halves of a
  256×128 weight matrix, a bias as a 1×128 row, and the scatter-sum of the edge messages to their source nodes
  (divided by the normalisation factor 1).
-/
import proofs.«425308_j21560735826060_1_alg».proof.Proof.Gen.KernelIdeal

noncomputable section

namespace Cert.KernelIdeal.Terms

open Cert.KernelIdeal Cert.KernelIdeal.Gen Idealize.ShloMosaic Idealize.SL.Sem

variable {F : FTy → Type} [FloatOps F]

/-- Row 0 of the edge list: the source node of every edge. -/
def rowK (ei : IVec S2x600000 32) : IVec S600000 32 :=
  shapeCast S600000 (extractStridedSlice S1x600000 ![0, 0] ei slices_S2x600000_S1x600000_0_0) shapeCasts_S1x600000_S600000

/-- Row 1 of the edge list: the target node of every edge. -/
def colK (ei : IVec S2x600000 32) : IVec S600000 32 :=
  shapeCast S600000 (extractStridedSlice S1x600000 ![1, 0] ei slices_S2x600000_S1x600000_1_0) shapeCasts_S1x600000_S600000

/-- A vector of node ids as a column of start indices. -/
def colIdx (r : IVec S600000 32) : IVec S600000x1 32 := broadcastInDim S600000x1 ![0] bcast_S600000_S600000x1_0 r

/-- Row `r e` of the table for every edge `e`. -/
def gatherK (h : FVec F S50000x128 .f32) (r : IVec S600000 32) : FVec F S600000x128 .f32 :=
  Host.gather gather_S50000x128_S600000x1_S600000x128_1_0_n_n_0_1_1128 h (colIdx r)

/-- A negative id counted from the end (NumPy's convention). -/
def wrapK (r : IVec S600000 32) : IVec S600000 32 :=
  select (cmpi .slt r (broadcastInDim S600000 ![] bcast_S_S600000 (constantI S_ 32 0#32)))
    (addi r (broadcastInDim S600000 ![] bcast_S_S600000 (constantI S_ 32 50000#32))) r

/-- Whether each (wrapped) id lies in `[0, 49999]`. -/
def inRangeK (r : IVec S600000 32) : IVec S600000 1 :=
  Host.reduce IntOp.andi
    (andi (cmpi .sge (colIdx r) (broadcastInDim S600000x1 ![] bcast_S_S600000x1 (constantI S_ 32 0#32)))
      (cmpi .sle (colIdx r) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- jnp.take in its default mode: the gathered row where the wrapped id is in range, a row of NaN elsewhere. -/
def takeK (h : FVec F S50000x128 .f32) (r : IVec S600000 32) : FVec F S600000x128 .f32 :=
  select (broadcastInDim S600000x128 ![0] bcast_S600000_S600000x128_0 (inRangeK (wrapK r)))
    (gatherK h (wrapK r))
    (broadcastInDim S600000x128 ![] bcast_S_S600000x128 (constant S_ .f32 0x7FC00000#32))

/-- Rows 0–127 of a 256×128 matrix. -/
def topK (w : FVec F S256x128 .f32) : FVec F S128x128 .f32 := extractStridedSlice S128x128 ![0, 0] w slices_S256x128_S128x128_0_0
/-- Rows 128–255 of a 256×128 matrix. -/
def botK (w : FVec F S256x128 .f32) : FVec F S128x128 .f32 := extractStridedSlice S128x128 ![128, 0] w slices_S256x128_S128x128_128_0
/-- A bias vector as a 1×128 row. -/
def rowB (b : FVec F S128 .f32) : FVec F S1x128 .f32 := shapeCast S1x128 b shapeCasts_S128_S1x128

/-- The edge messages summed into their source nodes, over the normalisation factor 1. -/
def aggK (r : IVec S600000 32) (mij : FVec F S600000x128 .f32) : FVec F S50000x128 .f32 :=
  Host.divf
    (Host.scatterAdd scatter_S50000x128_S600000x1_S600000x128_1_0_0_1
      (broadcastInDim S50000x128 ![] bcast_S_S50000x128 (constant S_ .f32 0x00000000#32)) (colIdx r) mij)
    (broadcastInDim S50000x128 ![] bcast_S_S50000x128 (constant S_ .f32 0x3F800000#32))

/-- Every entry of the edge list is a node id: it lies in `[0, 50000)`. -/
def InRange (ei : IVec S2x600000 32) : Prop := ∀ i : S2x600000.Idx, 0 ≤ (ei i).toInt ∧ (ei i).toInt < 50000

end Cert.KernelIdeal.Terms

end
-- ==== Proof.KHost.lean ====
/- The host stretches: what each region's operand arrays hold when the region is entered (the two rows of the edge list, the two gathers of the feature table, the halves of the weight matrices, the biases as rows, the scatter-sum of the edge messages), and where the two results end. A buffer is followed back through the stretches that do not write it to the one that does, or to the launch. -/
import proofs.«425308_j21560735826060_1_alg».proof.Proof.Gen.KernelIdeal.Frame
import proofs.«425308_j21560735826060_1_alg».proof.Proof.KTerms
import Idealize.ShloMosaic.Lib.StableHlo.Run
import Idealize.ShloMosaic.Lib.ValueIdx

set_option maxRecDepth 16384

noncomputable section

namespace Cert.KernelIdeal.HostValue

open Cert.KernelIdeal Cert.KernelIdeal.Gen Cert.KernelIdeal.Terms
open Idealize.ShloMosaic Idealize.ShloMosaic.TcCoe Idealize.SL.Sem Idealize.ShloMosaic.ValueIdx

variable {F : FTy → Type} [FloatOps F]
variable (m : (ℓ : Loc nD τ sig) → Buf (Elt F) ℓ) (ρ : Dev nD → PrngReg)

/-- A stretch of host operations leaves a buffer none of them writes as it was. -/
local macro "kept" : tactic => `(tactic| (
  refine StableHlo.after_of_forall_not_mem _ _ (List.forall_iff_forall_mem.mp ?_)
  simp only [hostOps0, hostOps0_1, hostOps0_2, hostOps0_3, hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! the first stretch: the two rows of the edge list -/

/-- After the first stretch `main_v1` holds row 0 of the edge list (a slice of the argument, recast to a vector). -/
theorem W1_v1 (c : Dev nD) : W1 m ρ c (Proc.devRef .tc main_v1) = rowK (m ((c : Thread nD τ).loc main_arg1)) := by
  show StableHlo.after hostOps0 (W0 m ρ c) (Proc.devRef .tc main_v1) = _
  after_results
  rfl
/-- After the first stretch `main_v3` holds row 1 of the edge list. -/
theorem W1_v3 (c : Dev nD) : W1 m ρ c (Proc.devRef .tc main_v3) = colK (m ((c : Thread nD τ).loc main_arg1)) := by
  show StableHlo.after hostOps0 (W0 m ρ c) (Proc.devRef .tc main_v3) = _
  after_results
  rfl

/-! the two gathers: each stretch of 23 operations is `takeK` of the table and the id vector it is entered with -/

set_option maxHeartbeats 1000000 in
/-- The first gather, from any contents: wrap the ids, test the range, gather, fill. -/
theorem take0 (V : Valuation τ sig (Elt F)) :
    StableHlo.after hostOps0_1 V (Proc.devRef .tc main_v4) = takeK (V (Proc.devRef .tc main_arg0)) (V (Proc.devRef .tc main_v1)) := by
  after_results_simp
  simp only [StableHlo.TRef.ofBuf, StableHlo.TRef.toBuf, cast_eq]
  rfl
set_option maxHeartbeats 1000000 in
/-- The second gather, from any contents. -/
theorem take1 (V : Valuation τ sig (Elt F)) :
    StableHlo.after hostOps0_2 V (Proc.devRef .tc main_v5) = takeK (V (Proc.devRef .tc main_arg0)) (V (Proc.devRef .tc main_v3)) := by
  after_results_simp
  simp only [StableHlo.TRef.ofBuf, StableHlo.TRef.toBuf, cast_eq]
  rfl

/-- The feature table is the launch's through the first stretch, -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by kept
    _ = m ((c : Thread nD τ).loc main_arg0) := rfl
/-- and through the first gather. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := by kept
    _ = m ((c : Thread nD τ).loc main_arg0) := W1_arg0 m ρ c
/-- Row 1 of the edge list is untouched by the first gather. -/
theorem W2_v3 (c : Dev nD) : W2 m ρ c (Proc.devRef .tc main_v3) = colK (m ((c : Thread nD τ).loc main_arg1)) :=
  calc W2 m ρ c (Proc.devRef .tc main_v3)
    _ = W1 m ρ c (Proc.devRef .tc main_v3) := by kept
    _ = colK (m ((c : Thread nD τ).loc main_arg1)) := W1_v3 m ρ c

/-! region 0's operands at its entry -/
theorem V4_v4 (c : Dev nD) : V4 m ρ c main_v4 = takeK (m ((c : Thread nD τ).loc main_arg0)) (rowK (m ((c : Thread nD τ).loc main_arg1))) :=
  calc W4 m ρ c (Proc.devRef .tc main_v4)
    _ = W3 m ρ c (Proc.devRef .tc main_v4) := by kept
    _ = W2 m ρ c (Proc.devRef .tc main_v4) := by kept
    _ = takeK (W1 m ρ c (Proc.devRef .tc main_arg0)) (W1 m ρ c (Proc.devRef .tc main_v1)) := take0 (W1 m ρ c)
    _ = takeK (m ((c : Thread nD τ).loc main_arg0)) (rowK (m ((c : Thread nD τ).loc main_arg1))) := by rw [W1_arg0, W1_v1]
theorem V4_v5 (c : Dev nD) : V4 m ρ c main_v5 = takeK (m ((c : Thread nD τ).loc main_arg0)) (colK (m ((c : Thread nD τ).loc main_arg1))) :=
  calc W4 m ρ c (Proc.devRef .tc main_v5)
    _ = W3 m ρ c (Proc.devRef .tc main_v5) := by kept
    _ = takeK (W2 m ρ c (Proc.devRef .tc main_arg0)) (W2 m ρ c (Proc.devRef .tc main_v3)) := take1 (W2 m ρ c)
    _ = takeK (m ((c : Thread nD τ).loc main_arg0)) (colK (m ((c : Thread nD τ).loc main_arg1))) := by rw [W2_arg0, W2_v3]
theorem V4_v6 (c : Dev nD) : V4 m ρ c main_v6 = topK (m ((c : Thread nD τ).loc main_arg2)) := by
  show StableHlo.after hostOps0_3 (W3 m ρ c) (Proc.devRef .tc main_v6) = _
  after_results
  rfl
theorem V4_v7 (c : Dev nD) : V4 m ρ c main_v7 = botK (m ((c : Thread nD τ).loc main_arg2)) := by
  show StableHlo.after hostOps0_3 (W3 m ρ c) (Proc.devRef .tc main_v7) = _
  after_results
  rfl
theorem V4_v8 (c : Dev nD) : V4 m ρ c main_v8 = rowB (m ((c : Thread nD τ).loc main_arg3)) := by
  show StableHlo.after hostOps0_3 (W3 m ρ c) (Proc.devRef .tc main_v8) = _
  after_results
  rfl
theorem V4_arg4 (c : Dev nD) : V4 m ρ c main_arg4 = m ((c : Thread nD τ).loc main_arg4) := by
  show StableHlo.after hostOps0_3 (W3 m ρ c) (Proc.devRef .tc main_arg4) = _
  after_results
theorem V4_v9 (c : Dev nD) : V4 m ρ c main_v9 = rowB (m ((c : Thread nD τ).loc main_arg5)) := by
  show StableHlo.after hostOps0_3 (W3 m ρ c) (Proc.devRef .tc main_v9) = _
  after_results
  rfl

/-! region 1's operands at its entry -/

/-- A buffer that no stretch before region 0 writes holds the launch's contents when region 0 is entered. -/
local macro "launch4" : tactic => `(tactic| (
  show StableHlo.after hostOps0_3 (W3 _ _ _) _ = _
  after_results))

theorem W4_arg0 (c : Dev nD) : W4 m ρ c (Proc.devRef .tc main_arg0) = m ((c : Thread nD τ).loc main_arg0) := by launch4
theorem W4_arg6 (c : Dev nD) : W4 m ρ c (Proc.devRef .tc main_arg6) = m ((c : Thread nD τ).loc main_arg6) := by launch4
theorem W4_arg7 (c : Dev nD) : W4 m ρ c (Proc.devRef .tc main_arg7) = m ((c : Thread nD τ).loc main_arg7) := by launch4
theorem W4_arg8 (c : Dev nD) : W4 m ρ c (Proc.devRef .tc main_arg8) = m ((c : Thread nD τ).loc main_arg8) := by launch4
theorem W4_arg9 (c : Dev nD) : W4 m ρ c (Proc.devRef .tc main_arg9) = m ((c : Thread nD τ).loc main_arg9) := by launch4
/-- Row 0 of the edge list is still in `main_v1` when region 0 is entered, -/
theorem W4_v1 (c : Dev nD) : W4 m ρ c (Proc.devRef .tc main_v1) = rowK (m ((c : Thread nD τ).loc main_arg1)) :=
  calc W4 m ρ c (Proc.devRef .tc main_v1)
    _ = W3 m ρ c (Proc.devRef .tc main_v1) := by kept
    _ = W2 m ρ c (Proc.devRef .tc main_v1) := by kept
    _ = W1 m ρ c (Proc.devRef .tc main_v1) := by kept
    _ = rowK (m ((c : Thread nD τ).loc main_arg1)) := W1_v1 m ρ c

/-- Region 0 leaves a buffer that is none of its arrays as it was. -/
theorem W5_arg0 (c : Dev nD) : W5 m ρ c (Proc.devRef .tc main_arg0) = m ((c : Thread nD τ).loc main_arg0) :=
  (W5_of_ne m ρ c main_arg0 (by decide)).trans (W4_arg0 m ρ c)
theorem W5_arg6 (c : Dev nD) : W5 m ρ c (Proc.devRef .tc main_arg6) = m ((c : Thread nD τ).loc main_arg6) :=
  (W5_of_ne m ρ c main_arg6 (by decide)).trans (W4_arg6 m ρ c)
theorem W5_arg7 (c : Dev nD) : W5 m ρ c (Proc.devRef .tc main_arg7) = m ((c : Thread nD τ).loc main_arg7) :=
  (W5_of_ne m ρ c main_arg7 (by decide)).trans (W4_arg7 m ρ c)
theorem W5_arg8 (c : Dev nD) : W5 m ρ c (Proc.devRef .tc main_arg8) = m ((c : Thread nD τ).loc main_arg8) :=
  (W5_of_ne m ρ c main_arg8 (by decide)).trans (W4_arg8 m ρ c)
theorem W5_arg9 (c : Dev nD) : W5 m ρ c (Proc.devRef .tc main_arg9) = m ((c : Thread nD τ).loc main_arg9) :=
  (W5_of_ne m ρ c main_arg9 (by decide)).trans (W4_arg9 m ρ c)
theorem W5_v1 (c : Dev nD) : W5 m ρ c (Proc.devRef .tc main_v1) = rowK (m ((c : Thread nD τ).loc main_arg1)) :=
  (W5_of_ne m ρ c main_v1 (by decide)).trans (W4_v1 m ρ c)
/-- Region 0's output array holds what its write-backs leave. -/
theorem W5_v10 (c : Dev nD) : W5 m ρ c (Proc.devRef .tc main_v10) = (dat0 (V4 m ρ) c).arrAt 7 cfg0.N := W5_arr m ρ c 7

theorem V6_arg0 (c : Dev nD) : V6 m ρ c main_arg0 = m ((c : Thread nD τ).loc main_arg0) :=
  calc W6 m ρ c (Proc.devRef .tc main_arg0)
    _ = W5 m ρ c (Proc.devRef .tc main_arg0) := by kept
    _ = m ((c : Thread nD τ).loc main_arg0) := W5_arg0 m ρ c
theorem V6_v15 (c : Dev nD) : V6 m ρ c main_v15 = aggK (rowK (m ((c : Thread nD τ).loc main_arg1))) ((dat0 (V4 m ρ) c).arrAt 7 cfg0.N) := by
  show StableHlo.after hostOps1 (W5 m ρ c) (Proc.devRef .tc main_v15) = _
  after_results
  rw [W5_v1, W5_v10]
  rfl
theorem V6_v16 (c : Dev nD) : V6 m ρ c main_v16 = topK (m ((c : Thread nD τ).loc main_arg6)) := by
  show StableHlo.after hostOps1 (W5 m ρ c) (Proc.devRef .tc main_v16) = _
  after_results
  rw [W5_arg6]
  rfl
theorem V6_v17 (c : Dev nD) : V6 m ρ c main_v17 = botK (m ((c : Thread nD τ).loc main_arg6)) := by
  show StableHlo.after hostOps1 (W5 m ρ c) (Proc.devRef .tc main_v17) = _
  after_results
  rw [W5_arg6]
  rfl
theorem V6_v18 (c : Dev nD) : V6 m ρ c main_v18 = rowB (m ((c : Thread nD τ).loc main_arg7)) := by
  show StableHlo.after hostOps1 (W5 m ρ c) (Proc.devRef .tc main_v18) = _
  after_results
  rw [W5_arg7]
  rfl
theorem V6_arg8 (c : Dev nD) : V6 m ρ c main_arg8 = m ((c : Thread nD τ).loc main_arg8) :=
  calc W6 m ρ c (Proc.devRef .tc main_arg8)
    _ = W5 m ρ c (Proc.devRef .tc main_arg8) := by kept
    _ = m ((c : Thread nD τ).loc main_arg8) := W5_arg8 m ρ c
theorem V6_v19 (c : Dev nD) : V6 m ρ c main_v19 = rowB (m ((c : Thread nD τ).loc main_arg9)) := by
  show StableHlo.after hostOps1 (W5 m ρ c) (Proc.devRef .tc main_v19) = _
  after_results
  rw [W5_arg9]
  rfl

/-! the two results at the last boundary -/
theorem W7_v20 (c : Dev nD) : W7 m ρ c (Proc.devRef .tc main_v20) = (dat1 (V6 m ρ) c).arrAt 7 cfg1.N := W7_arr m ρ c 7
theorem W7_v10 (c : Dev nD) : W7 m ρ c (Proc.devRef .tc main_v10) = (dat0 (V4 m ρ) c).arrAt 7 cfg0.N :=
  calc W7 m ρ c (Proc.devRef .tc main_v10)
    _ = W6 m ρ c (Proc.devRef .tc main_v10) := W7_of_ne m ρ c main_v10 (by decide)
    _ = W5 m ρ c (Proc.devRef .tc main_v10) := by kept
    _ = (dat0 (V4 m ρ) c).arrAt 7 cfg0.N := W5_v10 m ρ c

end Cert.KernelIdeal.HostValue

end
-- ==== Proof.Spec.lean ====
/-
  The mathematics of one graph-convolution layer, stated once over the extended reals, away from both programs.

  A row of 128 features goes through a two-layer perceptron whose FIRST layer takes TWO 128-wide inputs `a`, `b`
  against two 128×128 matrices `wa`, `wb` (the two halves of one 256×128 matrix applied to the concatenation
  `[a, b]`):   hid k = silu (Σᵢ aᵢ·wa[i,k] + Σᵢ bᵢ·wb[i,k] + b1[k]),   lin2 j = Σₖ hid k · w2[k,j] + b2[j],
  with `silu x = x · σ(x)`, `σ` the logistic function.
  • the EDGE message of edge `e` is `silu (lin2 j)` at `a = h[row e]`, `b = h[col e]`;
  • the NODE update of node `n` is `h[n,j] + lin2 j` at `a = h[n]`, `b = agg[n]`.
  The one law that joins the two programs is that a sum over 256 indices is the sum over its first 128 plus the sum
  over its last 128 (`sum_fin256`): addition of extended reals is commutative and associative, so no finiteness is used.
-/
import Idealize.ShloMosaic.PureOps.Ideal
import Idealize.ShloMosaic.PureOps.Ideal.Laws
import Idealize.ShloMosaic.Lib.ValueIdx
import Mathlib.Algebra.BigOperators.Fin

noncomputable section

namespace Cert.Gcl

open Idealize.ShloMosaic Idealize.ShloMosaic.ValueIdx

/-- edges × features -/
abbrev SE : Shape := ⟨2, ![600000, 128]⟩
/-- nodes × features -/
abbrev SN : Shape := ⟨2, ![50000, 128]⟩
/-- a 128 × 128 weight matrix -/
abbrev SW : Shape := ⟨2, ![128, 128]⟩
/-- a bias as a 1 × 128 row -/
abbrev SR : Shape := ⟨2, ![1, 128]⟩

/-- `silu x = x · σ(x)`. -/
def silu (x : EReal) : EReal := x * Ideal.logistic x

/-- The hidden unit `k` of the first layer: the two inputs against their matrices, the bias, then `silu`. -/
def hid (a b : Fin 128 → EReal) (wa wb : FVec Ideal SW .f32) (b1 : FVec Ideal SR .f32) (k : Fin 128) : EReal :=
  silu (((∑ i : Fin 128, a i * wa (ix2 (n0 := 128) (n1 := 128) i k)) + ∑ i : Fin 128, b i * wb (ix2 (n0 := 128) (n1 := 128) i k))
    + b1 (ix2 (n0 := 1) (n1 := 128) 0 k))

/-- Output `j` of the second (linear) layer over the hidden units. -/
def lin2 (a b : Fin 128 → EReal) (wa wb : FVec Ideal SW .f32) (b1 : FVec Ideal SR .f32) (w2 : FVec Ideal SW .f32)
    (b2 : FVec Ideal SR .f32) (j : Fin 128) : EReal :=
  (∑ k : Fin 128, hid a b wa wb b1 k * w2 (ix2 (n0 := 128) (n1 := 128) k j)) + b2 (ix2 (n0 := 1) (n1 := 128) 0 j)

/-- The edge messages: row `e` of `x0` and of `x1` through the perceptron, then `silu`. -/
def edgeK (x0 x1 : FVec Ideal SE .f32) (wa wb : FVec Ideal SW .f32) (b1 : FVec Ideal SR .f32) (w2 : FVec Ideal SW .f32)
    (b2 : FVec Ideal SR .f32) : FVec Ideal SE .f32 := fun y =>
  silu (lin2 (fun i => x0 (ix2 (n0 := 600000) (n1 := 128) (y 0) i)) (fun i => x1 (ix2 (n0 := 600000) (n1 := 128) (y 0) i))
    wa wb b1 w2 b2 (y 1))

/-- The node update: row `n` of `x0` (the features) and of `x1` (the aggregate) through the perceptron, added to the features. -/
def nodeK (x0 x1 : FVec Ideal SN .f32) (wa wb : FVec Ideal SW .f32) (b1 : FVec Ideal SR .f32) (w2 : FVec Ideal SW .f32)
    (b2 : FVec Ideal SR .f32) : FVec Ideal SN .f32 := fun y =>
  x0 y + lin2 (fun i => x0 (ix2 (n0 := 50000) (n1 := 128) (y 0) i)) (fun i => x1 (ix2 (n0 := 50000) (n1 := 128) (y 0) i))
    wa wb b1 w2 b2 (y 1)

/-- A sum over 256 indices is the sum over the first 128 plus the sum over the last 128. -/
theorem sum_fin256 (f : Fin 256 → EReal) :
    ∑ i : Fin 256, f i = (∑ i : Fin 128, f ⟨i.val, by omega⟩) + ∑ i : Fin 128, f ⟨128 + i.val, by omega⟩ := by
  have h := Fin.sum_univ_add (M := EReal) (a := 128) (b := 128) (fun i : Fin (128 + 128) => f ⟨i.val, by have := i.isLt; omega⟩)
  exact h

end Cert.Gcl

end
-- ==== Proof.KEdge.lean ====
/- Region 0: the array of edge messages the first grid leaves. Each of its 100 points stores, for its 6000 edge rows,
   x · logistic x of the second linear layer of x · logistic x of the first (the source row times one matrix plus the
   target row times another plus a bias row); the 100 row blocks tile the [600000,128] array. -/
import proofs.«425308_j21560735826060_1_alg».proof.Proof.Gen.KernelIdeal.Frame
import proofs.«425308_j21560735826060_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Cert.KernelIdeal Cert.KernelIdeal.Gen
open Idealize.ShloMosaic Idealize.ShloMosaic.TcCoe Idealize.SL.Sem Idealize.ShloMosaic.ValueIdx

/-! ## The contraction of a [6000,128] block with a [128,128] matrix, index by index -/

/-- Left operand, axis 0 (rows, kept): the output's row. -/
theorem edot_lhs0 (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide), dif_pos (show (0 : Fin S6000x128.rank) ∈ dot_S6000x128_S128x128_S6000x128_1_0_0_1_n_n.lhsNonContracting by decide)]
  rfl
/-- Left operand, axis 1 (contracted): the contraction position. -/
theorem edot_lhs1 (i : S6000x128.Idx) (q : dot_S6000x128_S128x128_S6000x128_1_0_0_1_n_n.contr.Idx) :
    (dot_S6000x128_S128x128_S6000x128_1_0_0_1_n_n.lhsIdx i q 1).val = (q ⟨0, by decide⟩).val :=
  dot_S6000x128_S128x128_S6000x128_1_0_0_1_n_n.lhsIdx_val_of_single rfl i q
/-- Right operand, axis 0 (contracted): the contraction position. -/
theorem edot_rhs0 (i : S6000x128.Idx) (q : dot_S6000x128_S128x128_S6000x128_1_0_0_1_n_n.contr.Idx) :
    (dot_S6000x128_S128x128_S6000x128_1_0_0_1_n_n.rhsIdx i q 0).val = (q ⟨0, by decide⟩).val :=
  dot_S6000x128_S128x128_S6000x128_1_0_0_1_n_n.rhsIdx_val_of_single rfl i q
/-- Right operand, axis 1 (columns, kept): the output's column. -/
theorem edot_rhs1 (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide), dif_pos (show (1 : Fin S128x128.rank) ∈ dot_S6000x128_S128x128_S6000x128_1_0_0_1_n_n.rhsNonContracting by decide)]
  rfl

/-- A block times a matrix into the zero accumulator, at row p and column q: the sum over the 128 contracted
    positions of the row's entries times the column's. -/
theorem edge_mm_apply {φ₁ φ₂ : FTy} (a : FVec Ideal S6000x128 φ₁) (b : FVec Ideal S128x128 φ₂) (p : Fin 6000) (q : Fin 128) :
    matmul dot_S6000x128_S128x128_S6000x128_1_0_0_1_n_n none a b (constant S6000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S6000x128_S128x128_S6000x128_1_0_0_1_n_n 128 rfl rfl).symm]
  refine Finset.sum_congr rfl fun k _ => ?_
  have hk := ValueIdx.contrEquiv1_symm_val dot_S6000x128_S128x128_S6000x128_1_0_0_1_n_n 128 rfl rfl k
  have el : dot_S6000x128_S128x128_S6000x128_1_0_0_1_n_n.lhsIdx (ix2 p q) ((ValueIdx.contrEquiv1 dot_S6000x128_S128x128_S6000x128_1_0_0_1_n_n 128 rfl rfl).symm k) = ix2 p k := funext fun a => Fin.ext (by
    match a with
    | ⟨0, _⟩ => exact edot_lhs0 _ _
    | ⟨1, _⟩ => exact (edot_lhs1 _ _).trans hk)
  have er : dot_S6000x128_S128x128_S6000x128_1_0_0_1_n_n.rhsIdx (ix2 p q) ((ValueIdx.contrEquiv1 dot_S6000x128_S128x128_S6000x128_1_0_0_1_n_n 128 rfl rfl).symm k) = ix2 k q := funext fun a => Fin.ext (by
    match a with
    | ⟨0, _⟩ => exact (edot_rhs0 _ _).trans hk
    | ⟨1, _⟩ => exact edot_rhs1 _ _)
  rw [el, er]

/-- A [1,128] row broadcast down 6000 rows, at row p and column q, is the row's entry q. -/
theorem edge_bcast_row_apply (x : FVec Ideal S1x128 .f32) (p : Fin 6000) (q : Fin 128) :
    broadcastTo S6000x128 x broadcasts_S1x128_S6000x128 (ix2 p q) = x (ix2 (n0 := 1) (n1 := 128) 0 q) := by
  refine broadcastTo_apply x broadcasts_S1x128_S6000x128 (ix2 p q) (ix2 (n0 := 1) (n1 := 128) 0 q) fun a => ?_
  match a with
  | ⟨0, _⟩ => rfl
  | ⟨1, _⟩ => show q.val = if (128 : Nat) = 1 then 0 else q.val; rw [if_neg (by decide)]

/-! ## What a point stores, index by index -/

/-- The first layer before its nonlinearity: the two blocks times their matrices, plus the bias row. -/
def edgePre1 (x0 x1 : Vec Ideal S6000x128 .f32) (x2 x3 : Vec Ideal S128x128 .f32) (x4 : Vec Ideal S1x128 .f32) : FVec Ideal S6000x128 .f32 :=
  addf (addf (matmul dot_S6000x128_S128x128_S6000x128_1_0_0_1_n_n none
      (truncf .bf16 (shapeCast S6000x128 x0 shapeCasts_S6000x128_S6000x128) bitsLt_bf16_f32)
      (truncf .bf16 (shapeCast S128x128 x2 shapeCasts_S128x128_S128x128) bitsLt_bf16_f32) (constant S6000x128 .f32 0x00000000#32))
    (matmul dot_S6000x128_S128x128_S6000x128_1_0_0_1_n_n none
      (truncf .bf16 (shapeCast S6000x128 x1 shapeCasts_S6000x128_S6000x128) bitsLt_bf16_f32)
      (truncf .bf16 (shapeCast S128x128 x3 shapeCasts_S128x128_S128x128) bitsLt_bf16_f32) (constant S6000x128 .f32 0x00000000#32)))
    (broadcastTo S6000x128 (shapeCast S1x128 x4 shapeCasts_S1x128_S1x128) broadcasts_S1x128_S6000x128)

/-- At row p, column k: the two 128-term sums plus the bias entry. -/
theorem edgePre1_apply (x0 x1 : Vec Ideal S6000x128 .f32) (x2 x3 : Vec Ideal S128x128 .f32) (x4 : Vec Ideal S1x128 .f32)
    (p : Fin 6000) (k : Fin 128) :
    edgePre1 x0 x1 x2 x3 x4 (ix2 p k)
      = ((∑ i : Fin 128, x0 (ix2 p i) * x2 (ix2 i k)) + ∑ i : Fin 128, x1 (ix2 p i) * x3 (ix2 i k)) + x4 (ix2 (n0 := 1) (n1 := 128) 0 k) := by
  unfold edgePre1
  rw [addf_apply, addf_apply, edge_mm_apply, edge_mm_apply, edge_bcast_row_apply]
  simp only [shapeCast_self, truncf_apply]

/-- The hidden layer: the first layer through x · logistic x. -/
def edgeHid (x0 x1 : Vec Ideal S6000x128 .f32) (x2 x3 : Vec Ideal S128x128 .f32) (x4 : Vec Ideal S1x128 .f32) : FVec Ideal S6000x128 .f32 :=
  mulf (edgePre1 x0 x1 x2 x3 x4) (logistic (edgePre1 x0 x1 x2 x3 x4))

/-- At row p, column k it is the hidden unit k of rows p of the two blocks. -/
theorem edgeHid_apply (x0 x1 : Vec Ideal S6000x128 .f32) (x2 x3 : Vec Ideal S128x128 .f32) (x4 : Vec Ideal S1x128 .f32)
    (p : Fin 6000) (k : Fin 128) :
    edgeHid x0 x1 x2 x3 x4 (ix2 p k) = Cert.Gcl.hid (fun i => x0 (ix2 p i)) (fun i => x1 (ix2 p i)) x2 x3 x4 k := by
  unfold edgeHid Cert.Gcl.hid Cert.Gcl.silu
  rw [mulf_apply]
  show edgePre1 x0 x1 x2 x3 x4 (ix2 p k) * Ideal.logistic (edgePre1 x0 x1 x2 x3 x4 (ix2 p k)) = _
  rw [edgePre1_apply]

/-- The second layer before its nonlinearity. -/
def edgePre2 (x0 x1 : Vec Ideal S6000x128 .f32) (x2 x3 x5 : Vec Ideal S128x128 .f32) (x4 x6 : Vec Ideal S1x128 .f32) : FVec Ideal S6000x128 .f32 :=
  addf (matmul dot_S6000x128_S128x128_S6000x128_1_0_0_1_n_n none
      (truncf .bf16 (edgeHid x0 x1 x2 x3 x4) bitsLt_bf16_f32)
      (truncf .bf16 x5 bitsLt_bf16_f32) (constant S6000x128 .f32 0x00000000#32))
    (broadcastTo S6000x128 (shapeCast S1x128 x6 shapeCasts_S1x128_S1x128) broadcasts_S1x128_S6000x128)

/-- At row p, column q: the 128 hidden units against column q of the second matrix, plus the bias entry. -/
theorem edgePre2_apply (x0 x1 : Vec Ideal S6000x128 .f32) (x2 x3 x5 : Vec Ideal S128x128 .f32) (x4 x6 : Vec Ideal S1x128 .f32)
    (p : Fin 6000) (q : Fin 128) :
    edgePre2 x0 x1 x2 x3 x5 x4 x6 (ix2 p q) = Cert.Gcl.lin2 (fun i => x0 (ix2 p i)) (fun i => x1 (ix2 p i)) x2 x3 x4 x5 x6 q := by
  unfold edgePre2 Cert.Gcl.lin2
  rw [addf_apply, edge_mm_apply, edge_bcast_row_apply]
  simp only [shapeCast_self, truncf_apply, edgeHid_apply]

/-- What a point stores is the second layer through x · logistic x. -/
theorem edge_pay_eq (x0 x1 : Vec Ideal S6000x128 .f32) (x2 x3 x5 : Vec Ideal S128x128 .f32) (x4 x6 : Vec Ideal S1x128 .f32) :
    k0_pay1 x0 x1 x2 x3 x4 x5 x6 = mulf (edgePre2 x0 x1 x2 x3 x5 x4 x6) (logistic (edgePre2 x0 x1 x2 x3 x5 x4 x6)) := rfl

/-- THE PAYLOAD AT AN INDEX: row p, column q of what a point stores is the two-layer map of rows p of the two
    loaded blocks. -/
theorem edge_pay_apply (x0 x1 : Vec Ideal S6000x128 .f32) (x2 x3 x5 : Vec Ideal S128x128 .f32) (x4 x6 : Vec Ideal S1x128 .f32)
    (p : Fin 6000) (q : Fin 128) :
    k0_pay1 x0 x1 x2 x3 x4 x5 x6 (ix2 p q)
      = Cert.Gcl.silu (Cert.Gcl.lin2 (fun i => x0 (ix2 p i)) (fun i => x1 (ix2 p i)) x2 x3 x4 x5 x6 q) := by
  rw [edge_pay_eq, mulf_apply]
  show edgePre2 x0 x1 x2 x3 x5 x4 x6 (ix2 p q) * Ideal.logistic (edgePre2 x0 x1 x2 x3 x5 x4 x6 (ix2 p q)) = _
  rw [edgePre2_apply]
  rfl

/-! ## Where each block sits in its array, and what a point writes back -/

variable (V : (c : Dev nD) → (b : Ref sig .tc) → Buf (Elt Ideal) ((c : Thread nD τ).loc b))

/-- The zero offset of a whole-block access. -/
theorem edge_hz : (![0, 0] : Fin 2 → Nat) = fun _ => 0 := funext fun a => by fin_cases a <;> rfl

/-- The index maps over the 100 points: the two row-block inputs move with the output, whose row-block index is the
    point's number; every matrix and bias row stays at block 0. -/
theorem edge_idx_facts : ∀ t : Fin cfg0.N,
    win0_0.index t (0 : Fin 2) = win0_7.index t (0 : Fin 2) ∧ win0_0.index t (1 : Fin 2) = win0_7.index t (1 : Fin 2)
    ∧ win0_1.index t (0 : Fin 2) = win0_7.index t (0 : Fin 2) ∧ win0_1.index t (1 : Fin 2) = win0_7.index t (1 : Fin 2)
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of point t's block is row t · 6000 + p of the array. -/
def edgeRow (t : Fin cfg0.N) (p : Fin 6000) : Fin 600000 := ⟨t.val * 6000 + p.val, by have : t.val < 100 := t.isLt; omega⟩

/-- Output block t, entry (p, q), sits at row t · 6000 + p, column q of the array. -/
theorem edge_emb_out (t : Fin cfg0.N) (p : Fin 6000) (q : Fin 128) :
    ((cfg0.win 7).blk t).view.emb (ix2 p q) = ix2 (edgeRow t p) q := by
  obtain ⟨-, -, -, -, -, -, -, -, -, -, -, -, -, -, e0, e1⟩ := edge_idx_facts t
  funext a; apply Fin.ext
  match a with
  | ⟨0, _⟩ => show win0_7.index t (0 : Fin 2) * 6000 + 1 * p.val = t.val * 6000 + p.val; omega
  | ⟨1, _⟩ => show win0_7.index t (1 : Fin 2) * 128 + 1 * q.val = q.val; omega

/-- So does entry (p, i) of the first input's block t, -/
theorem edge_emb_in0 (t : Fin cfg0.N) (p : Fin 6000) (i : Fin 128) :
    ((cfg0.win 0).blk t).view.emb (ix2 p i) = ix2 (edgeRow t p) i := by
  obtain ⟨a0, a1, -, -, -, -, -, -, -, -, -, -, -, -, e0, e1⟩ := edge_idx_facts t
  funext a; apply Fin.ext
  match a with
  | ⟨0, _⟩ => show win0_0.index t (0 : Fin 2) * 6000 + 1 * p.val = t.val * 6000 + p.val; omega
  | ⟨1, _⟩ => show win0_0.index t (1 : Fin 2) * 128 + 1 * i.val = i.val; omega

/-- and of the second input's. -/
theorem edge_emb_in1 (t : Fin cfg0.N) (p : Fin 6000) (i : Fin 128) :
    ((cfg0.win 1).blk t).view.emb (ix2 p i) = ix2 (edgeRow t p) i := by
  obtain ⟨-, -, a0, a1, -, -, -, -, -, -, -, -, -, -, e0, e1⟩ := edge_idx_facts t
  funext a; apply Fin.ext
  match a with
  | ⟨0, _⟩ => show win0_1.index t (0 : Fin 2) * 6000 + 1 * p.val = t.val * 6000 + p.val; omega
  | ⟨1, _⟩ => show win0_1.index t (1 : Fin 2) * 128 + 1 * i.val = i.val; omega

/-- Each matrix and bias row is its array's one block, every entry in place: the first layer's two matrices, -/
theorem edge_emb_w2 (t : Fin cfg0.N) (y : S128x128.Idx) : ((cfg0.win 2).blk t).view.emb y = y := by
  obtain ⟨-, -, -, -, a0, a1, -⟩ := edge_idx_facts t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem edge_emb_w3 (t : Fin cfg0.N) (y : S128x128.Idx) : ((cfg0.win 3).blk t).view.emb y = y := by
  obtain ⟨-, -, -, -, -, -, a0, a1, -⟩ := edge_idx_facts t
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- its bias row, -/
theorem edge_emb_w4 (t : Fin cfg0.N) (y : S1x128.Idx) : ((cfg0.win 4).blk t).view.emb y = y := by
  obtain ⟨-, -, -, -, -, -, -, -, a0, a1, -⟩ := edge_idx_facts t
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- the second layer's matrix -/
theorem edge_emb_w5 (t : Fin cfg0.N) (y : S128x128.Idx) : ((cfg0.win 5).blk t).view.emb y = y := by
  obtain ⟨-, -, -, -, -, -, -, -, -, -, a0, a1, -⟩ := edge_idx_facts t
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- and its bias row. -/
theorem edge_emb_w6 (t : Fin cfg0.N) (y : S1x128.Idx) : ((cfg0.win 6).blk t).view.emb y = y := by
  obtain ⟨-, -, -, -, -, -, -, -, -, -, -, -, a0, a1, -⟩ := edge_idx_facts t
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- WHAT POINT t WRITES BACK is block t of the edge-message array: the payload at (p, q) is the two-layer map of rows p
    of the two input blocks, which are rows t · 6000 + p of the two gathered arrays; the matrices and bias rows are read whole. -/
theorem edge_flushed_eq (c : Dev nD) (t : Fin cfg0.N) :
    (dat0 (F := Ideal) V c).flushed 7 t
      = ((cfg0.win 7).blk t).view.read (Elt Ideal) (Cert.Gcl.edgeK (V c main_v4) (V c main_v5) (V c main_v6) (V c main_v7) (V c main_v8) (V c main_arg4) (V c main_v9)) := by
  show (cfg0.win 7).cut (grid0.coords t) ((dat0 V c).after 7 t) = _
  rw [after0_7]
  unfold out0_7
  rw [View.canon_unit_zero edge_hz]
  simp only [View.ld_unit_zero (S := S6000x128) edge_hz, View.ld_unit_zero (S := S128x128) edge_hz, View.ld_unit_zero (S := S1x128) edge_hz]
  funext j
  obtain ⟨p, q, rfl⟩ : ∃ (p : Fin 6000) (q : Fin 128), j = ix2 p q := ⟨j 0, j 1, eq_ix2 j⟩
  show k0_pay1 (iblk0 V c 0 t) (iblk0 V c 1 t) (iblk0 V c 2 t) (iblk0 V c 3 t) (iblk0 V c 4 t) (iblk0 V c 5 t) (iblk0 V c 6 t) (ix2 p q)
    = Cert.Gcl.edgeK (V c main_v4) (V c main_v5) (V c main_v6) (V c main_v7) (V c main_v8) (V c main_arg4) (V c main_v9) (((cfg0.win 7).blk t).view.emb (ix2 p q))
  refine (edge_pay_apply _ _ _ _ _ _ _ p q).trans ?_
  rw [edge_emb_out]
  have h0 : (fun i : Fin 128 => iblk0 V c 0 t (ix2 p i)) = fun i => V c main_v4 (ix2 (edgeRow t p) i) :=
    funext fun i => (show iblk0 V c 0 t (ix2 p i) = V c main_v4 (((cfg0.win 0).blk t).view.emb (ix2 p i)) from rfl).trans (by rw [edge_emb_in0])
  have h1 : (fun i : Fin 128 => iblk0 V c 1 t (ix2 p i)) = fun i => V c main_v5 (ix2 (edgeRow t p) i) :=
    funext fun i => (show iblk0 V c 1 t (ix2 p i) = V c main_v5 (((cfg0.win 1).blk t).view.emb (ix2 p i)) from rfl).trans (by rw [edge_emb_in1])
  have h2 : iblk0 V c 2 t = V c main_v6 :=
    funext fun y => (show iblk0 V c 2 t y = V c main_v6 (((cfg0.win 2).blk t).view.emb y) from rfl).trans (by rw [edge_emb_w2])
  have h3 : iblk0 V c 3 t = V c main_v7 :=
    funext fun y => (show iblk0 V c 3 t y = V c main_v7 (((cfg0.win 3).blk t).view.emb y) from rfl).trans (by rw [edge_emb_w3])
  have h4 : iblk0 V c 4 t = V c main_v8 :=
    funext fun y => (show iblk0 V c 4 t y = V c main_v8 (((cfg0.win 4).blk t).view.emb y) from rfl).trans (by rw [edge_emb_w4])
  have h5 : iblk0 V c 5 t = V c main_arg4 :=
    funext fun y => (show iblk0 V c 5 t y = V c main_arg4 (((cfg0.win 5).blk t).view.emb y) from rfl).trans (by rw [edge_emb_w5])
  have h6 : iblk0 V c 6 t = V c main_v9 :=
    funext fun y => (show iblk0 V c 6 t y = V c main_v9 (((cfg0.win 6).blk t).view.emb y) from rfl).trans (by rw [edge_emb_w6])
  rw [h0, h1, h2, h3, h4, h5, h6]
  rfl

/-! ## The cover, and the whole array -/

/-- An index of the array is in point t's block iff each coordinate is in the block's range on its axis. -/
theorem edge_mem_blk (t : Fin cfg0.N) (i : S600000x128.Idx) :
    i ∈ ((cfg0.win 7).blk t).view.set ↔ ∀ a : Fin 2, win0_7.index t a * S6000x128.size a ≤ (i a).val ∧ (i a).val < win0_7.index t a * S6000x128.size a + S6000x128.size a := by
  show i ∈ ((View.whole main_v10).slice (win0_7.rect t)).set ↔ _
  rw [View.set_slice_whole, Rect.mem_set_unit]
  exact Iff.rfl

/-- THE COVER: row r of the array is in the block of point r / 6000. -/
theorem edge_covered (i : S600000x128.Idx) :
    ∃ t : Fin cfg0.N, (cfg0.win 7).flush t = true ∧ i ∈ ((cfg0.win 7).blk t).view.set := by
  have hi0 : (i 0).val < 600000 := (i 0).isLt
  have hi1 : (i 1).val < 128 := (i 1).isLt
  have hN : cfg0.N = 100 := N_0
  have hlt : (i 0).val / 6000 < cfg0.N := by rw [hN]; omega
  obtain ⟨-, -, -, -, -, -, -, -, -, -, -, -, -, -, e0, e1⟩ := edge_idx_facts ⟨(i 0).val / 6000, hlt⟩
  have e0' : win0_7.index ⟨(i 0).val / 6000, hlt⟩ (0 : Fin 2) = (i 0).val / 6000 := e0
  refine ⟨⟨(i 0).val / 6000, hlt⟩, flush0_7 _, ?_⟩
  rw [edge_mem_blk]
  intro a
  match a with
  | ⟨0, _⟩ =>
    show win0_7.index ⟨(i 0).val / 6000, hlt⟩ (0 : Fin 2) * 6000 ≤ (i 0).val ∧ (i 0).val < win0_7.index ⟨(i 0).val / 6000, hlt⟩ (0 : Fin 2) * 6000 + 6000
    omega
  | ⟨1, _⟩ =>
    show win0_7.index ⟨(i 0).val / 6000, hlt⟩ (1 : Fin 2) * 128 ≤ (i 1).val ∧ (i 1).val < win0_7.index ⟨(i 0).val / 6000, hlt⟩ (1 : Fin 2) * 128 + 128
    omega

/-- THE ARRAY OF EDGE MESSAGES region 0 leaves: at every index the two-layer map of the two gathered rows. -/
theorem edge_final (c : Dev nD) :
    (dat0 (F := Ideal) V c).arrAt 7 cfg0.N
      = Cert.Gcl.edgeK (V c main_v4) (V c main_v5) (V c main_v6) (V c main_v7) (V c main_v8) (V c main_arg4) (V c main_v9) :=
  (dat0 (F := Ideal) V c).arrAt_eq_of_cover 7 _ (fun t _ => edge_flushed_eq V c t) edge_covered

end Cert.KernelIdeal.EdgeValue

end
-- ==== Proof.KNode.lean ====
/- Region 1: the array of updated node features the second region leaves. Each grid point t of 10 writes rows
   5000 t … 5000 t + 4999; row r, column q of the result is h[r, q] plus the second linear layer (column q) of the gated
   hidden row silu(h[r, :] · W_top + agg[r, :] · W_bot + b1), every block product an exact sum over its 128 contracted
   positions. The ten row blocks tile the 50000 rows, so the whole array is that one function of the entry arrays. -/
import proofs.«425308_j21560735826060_1_alg».proof.Proof.Gen.KernelIdeal.Frame
import proofs.«425308_j21560735826060_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

/-! ## The block product read at an index

The product's dimension numbers contract axis 1 of the left block with axis 0 of the right one; the four lemmas below
read the operand indices of output index `i` and contraction index `q` axis by axis. -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at row `p` and column `q`: the sum over the 128 contracted
    positions of the left block's row `p` times the right block's column `q`. -/
theorem mm_apply {φ₁ φ₂ : FTy} (A : FVec Ideal S5000x128 φ₁) (B : FVec Ideal S128x128 φ₂) (p : Fin 5000) (q : Fin 128) :
    matmul dot_S5000x128_S128x128_S5000x128_1_0_0_1_n_n none A B (constant S5000x128 .f32 0x00000000#32) (ix2 p q)
      = ∑ k : Fin 128, A (ix2 p k) * B (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The payload at an index -/

theorem logistic_apply {s : Shape} {φ : FTy} (a : FVec Ideal s φ) (i : s.Idx) : logistic a i = Ideal.logistic (a i) := rfl

/-- The stored block at row `p`, column `q`: the node's own feature plus the second linear layer of the
    gated hidden row computed from rows `p` of the two feature blocks. -/
theorem pay_apply (x0 x1 : Vec Ideal S5000x128 .f32) (x2 x3 : Vec Ideal S128x128 .f32) (x4 : Vec Ideal S1x128 .f32)
    (x5 : Vec Ideal S128x128 .f32) (x6 : Vec Ideal S1x128 .f32) (p : Fin 5000) (q : Fin 128) :
    k1_pay1 x0 x1 x2 x3 x4 x5 x6 (ix2 p q)
      = x0 (ix2 p q) + Cert.Gcl.lin2 (fun i => x0 (ix2 p i)) (fun i => x1 (ix2 p i)) x2 x3 x4 x5 x6 q := by
  unfold k1_pay1
  simp only [shapeCast_self, addf_apply, mulf_apply, truncf_apply, logistic_apply, mm_apply, broadcastTo_1b_ab_apply,
    Cert.Gcl.lin2, Cert.Gcl.hid, Cert.Gcl.silu]

/-- The stored block at a block index `j`, when rows `j 0` of the two feature blocks are rows `g 0` of two
    feature arrays and `g` has `j`'s column: the layer's value at `g`. -/
theorem pay_eq_nodeK (A0 A1 : FVec Ideal Cert.Gcl.SN .f32) (x0 x1 : Vec Ideal S5000x128 .f32) (x2 x3 : Vec Ideal S128x128 .f32)
    (x4 : Vec Ideal S1x128 .f32) (x5 : Vec Ideal S128x128 .f32) (x6 : Vec Ideal S1x128 .f32)
    (j : S5000x128.Idx) (g : S50000x128.Idx)
    (h0 : ∀ i : Fin 128, x0 (ix2 (j 0) i) = A0 (ix2 (g 0) i))
    (h1 : ∀ i : Fin 128, x1 (ix2 (j 0) i) = A1 (ix2 (g 0) i))
    (hq : (g 1).val = (j 1).val) :
    k1_pay1 x0 x1 x2 x3 x4 x5 x6 j = Cert.Gcl.nodeK A0 A1 x2 x3 x4 x5 x6 g := by
  obtain ⟨p, q, rfl⟩ : ∃ (p : Fin 5000) (q : Fin 128), j = ix2 p q := ⟨j 0, j 1, eq_ix2 j⟩
  obtain ⟨r, s, rfl⟩ : ∃ (r : Fin 50000) (s : Fin 128), g = ix2 r s := ⟨g 0, g 1, eq_ix2 g⟩
  obtain rfl : s = q := Fin.ext hq
  rw [pay_apply]
  unfold Cert.Gcl.nodeK
  have e0 : (fun i => x0 (ix2 p i)) = fun i => A0 (ix2 r i) := funext h0
  have e1 : (fun i => x1 (ix2 p i)) = fun i => A1 (ix2 r i) := funext h1
  rw [e0, e1, h0 s]

/-! ## From blocks to the array -/

theorem zero_offsets : (![0, 0] : Fin 2 → Nat) = fun _ => 0 := funext fun a => by fin_cases a <;> rfl

/-- The printed index maps, decided over the grid: the two feature windows move with the output's row block,
    the weight and bias windows stay at block 0, and the output's row block at point `t` is `t`. -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The first weight block is its whole array. -/
theorem iblk_2 (c : Dev nD) (t : Fin cfg1.N) : (iblk1 V c 2 t : Vec Ideal S128x128 .f32) = V c main_v16 := by
  obtain ⟨-, -, -, -, a2, b2, -⟩ := idx_facts t
  funext y
  show V c main_v16 (((cfg1.win 2).blk t).view.emb y) = V c main_v16 y
  refine congrArg (V c main_v16) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second weight block is its whole array. -/
theorem iblk_3 (c : Dev nD) (t : Fin cfg1.N) : (iblk1 V c 3 t : Vec Ideal S128x128 .f32) = V c main_v17 := by
  obtain ⟨-, -, -, -, -, -, a3, b3, -⟩ := idx_facts t
  funext y
  show V c main_v17 (((cfg1.win 3).blk t).view.emb y) = V c main_v17 y
  refine congrArg (V c main_v17) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The first bias block is its whole array. -/
theorem iblk_4 (c : Dev nD) (t : Fin cfg1.N) : (iblk1 V c 4 t : Vec Ideal S1x128 .f32) = V c main_v18 := by
  obtain ⟨-, -, -, -, -, -, -, -, a4, b4, -⟩ := idx_facts t
  funext y
  show V c main_v18 (((cfg1.win 4).blk t).view.emb y) = V c main_v18 y
  refine congrArg (V c main_v18) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The third weight block is its whole array. -/
theorem iblk_5 (c : Dev nD) (t : Fin cfg1.N) : (iblk1 V c 5 t : Vec Ideal S128x128 .f32) = V c main_arg8 := by
  obtain ⟨-, -, -, -, -, -, -, -, -, -, a5, b5, -⟩ := idx_facts t
  funext y
  show V c main_arg8 (((cfg1.win 5).blk t).view.emb y) = V c main_arg8 y
  refine congrArg (V c main_arg8) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- The second bias block is its whole array. -/
theorem iblk_6 (c : Dev nD) (t : Fin cfg1.N) : (iblk1 V c 6 t : Vec Ideal S1x128 .f32) = V c main_v19 := by
  obtain ⟨-, -, -, -, -, -, -, -, -, -, -, -, a6, b6, -⟩ := idx_facts t
  funext y
  show V c main_v19 (((cfg1.win 6).blk t).view.emb y) = V c main_v19 y
  refine congrArg (V c main_v19) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Row `p` of the block of node features at point `t` is the array's row at the output block's offset. -/
theorem iblk_0_row (c : Dev nD) (t : Fin cfg1.N) (j : S5000x128.Idx) (i : Fin 128) :
    (iblk1 V c 0 t : Vec Ideal S5000x128 .f32) (ix2 (j 0) i) = V c main_arg0 (ix2 ((((cfg1.win 7).blk t).view.emb j) 0) i) := by
  obtain ⟨a0, b0, -⟩ := idx_facts t
  show V c main_arg0 (((cfg1.win 0).blk t).view.emb (ix2 (j 0) i)) = V c main_arg0 (ix2 ((((cfg1.win 7).blk t).view.emb j) 0) i)
  refine congrArg (V c main_arg0) (funext fun a => Fin.ext ?_)
  match a with
  | ⟨0, _⟩ => show win1_0.index t (0 : Fin 2) * 5000 + 1 * (j 0).val = win1_7.index t (0 : Fin 2) * 5000 + 1 * (j 0).val; omega
  | ⟨1, _⟩ => show win1_0.index t (1 : Fin 2) * 128 + 1 * i.val = i.val; omega

/-- The same for the block of aggregated messages. -/
theorem iblk_1_row (c : Dev nD) (t : Fin cfg1.N) (j : S5000x128.Idx) (i : Fin 128) :
    (iblk1 V c 1 t : Vec Ideal S5000x128 .f32) (ix2 (j 0) i) = V c main_v15 (ix2 ((((cfg1.win 7).blk t).view.emb j) 0) i) := by
  obtain ⟨-, -, a1, b1, -⟩ := idx_facts t
  show V c main_v15 (((cfg1.win 1).blk t).view.emb (ix2 (j 0) i)) = V c main_v15 (ix2 ((((cfg1.win 7).blk t).view.emb j) 0) i)
  refine congrArg (V c main_v15) (funext fun a => Fin.ext ?_)
  match a with
  | ⟨0, _⟩ => show win1_1.index t (0 : Fin 2) * 5000 + 1 * (j 0).val = win1_7.index t (0 : Fin 2) * 5000 + 1 * (j 0).val; omega
  | ⟨1, _⟩ => show win1_1.index t (1 : Fin 2) * 128 + 1 * i.val = i.val; omega

/-- A block index and its place in the array have one column. -/
theorem emb_col (t : Fin cfg1.N) (j : S5000x128.Idx) : ((((cfg1.win 7).blk t).view.emb j) 1).val = (j 1).val := by
  obtain ⟨-, -, -, -, -, -, -, -, -, -, -, -, -, -, a7, b7⟩ := idx_facts t
  show win1_7.index t (1 : Fin 2) * 128 + 1 * (j 1).val = (j 1).val
  omega

/-- What point `t` writes back is block `t` of the layer's value on the arrays the region finds. -/
theorem flushed_eq (c : Dev nD) (t : Fin cfg1.N) :
    (dat1 (F := Ideal) V c).flushed 7 t = ((cfg1.win 7).blk t).view.read (Elt Ideal)
      (Cert.Gcl.nodeK (V c main_arg0) (V c main_v15) (V c main_v16) (V c main_v17) (V c main_v18) (V c main_arg8) (V c main_v19)) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S128x128) zero_offsets, View.ld_unit_zero (S := S1x128) zero_offsets]
  funext j
  show k1_pay1 (iblk1 V c 0 t) (iblk1 V c 1 t) (iblk1 V c 2 t) (iblk1 V c 3 t) (iblk1 V c 4 t) (iblk1 V c 5 t) (iblk1 V c 6 t) j
    = Cert.Gcl.nodeK (V c main_arg0) (V c main_v15) (V c main_v16) (V c main_v17) (V c main_v18) (V c main_arg8) (V c main_v19) (((cfg1.win 7).blk t).view.emb j)
  rw [iblk_2 V c t, iblk_3 V c t, iblk_4 V c t, iblk_5 V c t, iblk_6 V c t]
  exact pay_eq_nodeK (V c main_arg0) (V c main_v15) (iblk1 V c 0 t) (iblk1 V c 1 t) _ _ _ _ _ j (((cfg1.win 7).blk t).view.emb j)
    (iblk_0_row V c t j) (iblk_1_row V c t j) (emb_col t j)

/-- An index of the array is in point `t`'s block iff each coordinate is in the block's range on its axis. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v20).slice (win1_7.rect t)).set ↔ _
  rw [View.set_slice_whole, Rect.mem_set_unit]
  exact Iff.rfl

/-- Row `r` of the array is in the block of point `r / 5000`. -/
theorem covered (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_7 _, ?_⟩
  obtain ⟨-, -, -, -, -, -, -, -, -, -, -, -, -, -, a7, b7⟩ := idx_facts ⟨(i 0).val / 5000, by rw [hN]; omega⟩
  rw [mem_blk]
  intro a
  match a with
  | ⟨0, _⟩ =>
    show win1_7.index _ (0 : Fin 2) * 5000 ≤ (i 0).val ∧ (i 0).val < win1_7.index _ (0 : Fin 2) * 5000 + 5000
    rw [a7]
    show (i 0).val / 5000 * 5000 ≤ (i 0).val ∧ (i 0).val < (i 0).val / 5000 * 5000 + 5000
    omega
  | ⟨1, _⟩ =>
    show win1_7.index _ (1 : Fin 2) * 128 ≤ (i 1).val ∧ (i 1).val < win1_7.index _ (1 : Fin 2) * 128 + 128
    rw [b7]
    omega

theorem node_final (c : Dev nD) :
    (dat1 (F := Ideal) V c).arrAt 7 cfg1.N
      = Cert.Gcl.nodeK (V c main_arg0) (V c main_v15) (V c main_v16) (V c main_v17) (V c main_v18) (V c main_arg8) (V c main_v19) :=
  (dat1 (F := Ideal) V c).arrAt_eq_of_cover 7 _ (fun t _ => flushed_eq V c t) covered

end Cert.KernelIdeal.NodeValue

end
-- ==== Proof.PreRange.lean ====
/- The precondition's last conjunct read as a range: every entry of the edge list is a node id in [0, 50000). Under that
   range a negative-id wrap is the identity, the range test of the row lookup is one at every edge, and so the lookup's
   out-of-range fill is never selected: the guarded lookup is the plain gather. -/
import proofs.«425308_j21560735826060_1_alg».proof.Defs
import proofs.«425308_j21560735826060_1_alg».proof.Proof.Gen.Pre_finite_inputs
import proofs.«425308_j21560735826060_1_alg».proof.Proof.KTerms
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.PreRange

open Cert.KernelIdeal Cert.KernelIdeal.Gen Cert.KernelIdeal.Terms
open Idealize.ShloMosaic Idealize.ShloMosaic.TcCoe Idealize.SL.Sem Idealize.ShloMosaic.ValueIdx

/-! ## Signed compares of 32-bit words against the two bounds, read as facts about the signed value -/

theorem nonneg_of_sge_zero {x : BitVec 32} (h : IntOp.cmpi .sge x 0#32 = 1#1) : 0 ≤ x.toInt := by
  unfold IntOp.cmpi at h
  have h' := (StableHlo.Predicate.ofBool_eq_one_iff _).1 h
  simpa [BitVec.sle] using h'

theorem lt_of_slt_bound {x : BitVec 32} (h : IntOp.cmpi .slt x 50000#32 = 1#1) : x.toInt < 50000 := by
  unfold IntOp.cmpi at h
  have h' := (StableHlo.Predicate.ofBool_eq_one_iff _).1 h
  have hb : (50000#32 : BitVec 32).toInt = 50000 := by decide
  simpa [BitVec.slt, hb] using h'

theorem sge_zero_of_nonneg {x : BitVec 32} (h : 0 ≤ x.toInt) : IntOp.cmpi .sge x 0#32 = 1#1 := by
  unfold IntOp.cmpi
  refine (StableHlo.Predicate.ofBool_eq_one_iff _).2 ?_
  simpa [BitVec.sle] using h

theorem sle_top_of_lt {x : BitVec 32} (h : x.toInt < 50000) : IntOp.cmpi .sle x 49999#32 = 1#1 := by
  unfold IntOp.cmpi
  refine (StableHlo.Predicate.ofBool_eq_one_iff _).2 ?_
  have hb : (49999#32 : BitVec 32).toInt = 49999 := by decide
  simp only [BitVec.sle, hb, decide_eq_true_eq]
  omega

theorem slt_zero_of_nonneg {x : BitVec 32} (h : 0 ≤ x.toInt) : IntOp.cmpi .slt x 0#32 = 0#1 := by
  unfold IntOp.cmpi
  have hb : (0#32 : BitVec 32).toInt = 0 := by decide
  have : x.slt 0#32 = false := by
    simp only [BitVec.slt, hb, decide_eq_false_iff_not, not_lt]
    exact h
  rw [this]
  rfl

/-! ## The precondition's last conjunct: every entry of the edge list is a node id in [0, 50000) -/

theorem inRange_of_pre (m : (ℓ : Loc nD τ sig) → Buf (Elt Ideal) ℓ) (h : Cert.Pre_KernelIdeal m) (c : Dev nD) :
    InRange (m ((c.tc : Thread nD τ).loc main_arg1)) := by
  intro i
  haveI : Subsingleton Cert.Pre_finite_inputs.S_.Idx := ⟨fun a b => funext fun d => d.elim0⟩
  have h1 := congrFun (h c) ValueIdx.ix0
  unfold Cert.Pre_finite_inputs.fn Cert.Pre_finite_inputs.fn_part1 Cert.Pre_finite_inputs.fn_part2 at h1
  dsimp only at h1
  have h2 := (IntOp.andi_eq_one.1 h1).2
  have h3 := Host.reduce_andi_all _ _ _ _ _ h2 i
  obtain ⟨ha, hb⟩ := IntOp.andi_eq_one.1 h3
  exact ⟨nonneg_of_sge_zero ha, lt_of_slt_bound hb⟩

/-! ## A reduction by `and` of an array of ones is one -/

theorem foldl_andi_one {ι : Type} (f : ι → BitVec 1) :
    ∀ (l : List ι), (∀ n ∈ l, f n = 1#1) → l.foldl (fun r n => IntOp.andi r (f n)) 1#1 = 1#1
  | [], _ => rfl
  | a :: l, hl => by
    rw [List.foldl_cons, hl a (List.mem_cons_self ..)]
    exact foldl_andi_one f l (fun n hn => hl n (List.mem_cons_of_mem _ hn))

theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ (fun n _ => hx n)

/-! ## Ids already in range: the wrap is the identity, the range test is one everywhere, the fill is never selected -/

theorem wrapK_apply (r : IVec S600000 32) (e : S600000.Idx) (h0 : 0 ≤ (r e).toInt) : wrapK r e = r e := by
  show Scalar.select (IntOp.cmpi .slt (r e) 0#32) _ (r e) = r e
  rw [slt_zero_of_nonneg h0]
  rfl

theorem wrapK_eq (r : IVec S600000 32) (hr : ∀ e : S600000.Idx, 0 ≤ (r e).toInt ∧ (r e).toInt < 50000) : wrapK r = r :=
  funext fun e => wrapK_apply r e (hr e).1

theorem inRangeK_eq_one (r : IVec S600000 32) (hr : ∀ e : S600000.Idx, 0 ≤ (r e).toInt ∧ (r e).toInt < 50000)
    (k : S600000.Idx) : inRangeK r k = 1#1 := by
  unfold inRangeK
  refine reduce_andi_of_all _ _ _ _ rfl (fun i => ?_) k
  show IntOp.andi (IntOp.cmpi .sge (r _) 0#32) (IntOp.cmpi .sle (r _) 49999#32) = 1#1
  exact IntOp.andi_eq_one.2 ⟨sge_zero_of_nonneg (hr _).1, sle_top_of_lt (hr _).2⟩

theorem takeK_eq_gatherK (h : FVec Ideal S50000x128 .f32) (r : IVec S600000 32)
    (hr : ∀ e : S600000.Idx, 0 ≤ (r e).toInt ∧ (r e).toInt < 50000) : takeK h r = gatherK h (wrapK r) := by
  funext y
  unfold takeK
  rw [select_apply]
  have hc : broadcastInDim S600000x128 ![0] bcast_S600000_S600000x128_0 (inRangeK (wrapK r)) y = 1#1 := by
    unfold broadcastInDim
    rw [wrapK_eq r hr]
    exact inRangeK_eq_one r hr _
  rw [hc, select_one]

/-! ## The two rows of the edge list, read at an edge -/

theorem rowK_apply (ei : IVec S2x600000 32) (e : S600000.Idx) :
    rowK ei e = ei (ix2 (n0 := 2) (n1 := 600000) 0 (e 0)) := by
  unfold rowK
  refine (shapeCast_apply _ shapeCasts_S1x600000_S600000 e (ix2 (n0 := 1) (n1 := 600000) 0 (e 0)) ?_).trans ?_
  · rewrite [Shape.rowMajor_val_two, Shape.rowMajor_val_one]
    show 0 * 600000 + (e 0).val = (e 0).val
    omega
  · exact extractStridedSlice_apply ![0, 0] ei slices_S2x600000_S1x600000_0_0 _ _ (fun a => match a with
      | ⟨0, _⟩ => by show (0 : Nat) = 0 + 0; omega
      | ⟨1, _⟩ => by show (e 0).val = 0 + (e 0).val; omega)

theorem colK_apply (ei : IVec S2x600000 32) (e : S600000.Idx) :
    colK ei e = ei (ix2 (n0 := 2) (n1 := 600000) 1 (e 0)) := by
  unfold colK
  refine (shapeCast_apply _ shapeCasts_S1x600000_S600000 e (ix2 (n0 := 1) (n1 := 600000) 0 (e 0)) ?_).trans ?_
  · rewrite [Shape.rowMajor_val_two, Shape.rowMajor_val_one]
    show 0 * 600000 + (e 0).val = (e 0).val
    omega
  · exact extractStridedSlice_apply ![1, 0] ei slices_S2x600000_S1x600000_1_0 _ _ (fun a => match a with
      | ⟨0, _⟩ => by show (1 : Nat) = 1 + 0; omega
      | ⟨1, _⟩ => by show (e 0).val = 0 + (e 0).val; omega)

theorem rowK_inRange (ei : IVec S2x600000 32) (hi : InRange ei) (e : S600000.Idx) : 0 ≤ (rowK ei e).toInt ∧ (rowK ei e).toInt < 50000 := by
  rw [rowK_apply]
  exact hi _

theorem colK_inRange (ei : IVec S2x600000 32) (hi : InRange ei) (e : S600000.Idx) : 0 ≤ (colK ei e).toInt ∧ (colK ei e).toInt < 50000 := by
  rw [colK_apply]
  exact hi _

end Cert.KernelIdeal.PreRange

end
-- ==== Proof.KValue.lean ====
/-
  The idealized kernel's two results as functions of the launch memory, when every entry of the edge list is a node id.
  The edge messages: region 0 leaves the two-layer perceptron of its operand arrays, which the host stretches before it
  make from the arguments — the rows of the feature table gathered at the sources and at the targets (jnp.take's
  out-of-range fill never applies to an id in range), the two halves of the first weight matrix, the biases as rows.
  The node update: region 1 leaves the features plus the perceptron of the features and of the aggregate, which the
  host stretch between the regions makes from the edge messages (their sum into the source nodes, over 1).
-/
import proofs.«425308_j21560735826060_1_alg».proof.Proof.KHost
import proofs.«425308_j21560735826060_1_alg».proof.Proof.KEdge
import proofs.«425308_j21560735826060_1_alg».proof.Proof.KNode
import proofs.«425308_j21560735826060_1_alg».proof.Proof.PreRange

set_option maxRecDepth 16384

noncomputable section

namespace Cert.KernelIdeal.KValue

open Cert.KernelIdeal Cert.KernelIdeal.Gen Cert.KernelIdeal.Terms
open Cert.KernelIdeal.HostValue Cert.KernelIdeal.EdgeValue Cert.KernelIdeal.NodeValue Cert.KernelIdeal.PreRange
open Idealize.ShloMosaic Idealize.ShloMosaic.TcCoe Idealize.SL.Sem

variable (m : (ℓ : Loc nD τ sig) → Buf (Elt Ideal) ℓ) (ρ : Dev nD → PrngReg)

/-- The edge messages as a function of the arguments: the perceptron of the feature rows at each edge's two ends. -/
def mijOf (h : FVec Ideal S50000x128 .f32) (ei : IVec S2x600000 32) (ew1 : FVec Ideal S256x128 .f32) (eb1 : FVec Ideal S128 .f32)
    (ew2 : FVec Ideal S128x128 .f32) (eb2 : FVec Ideal S128 .f32) : FVec Ideal S600000x128 .f32 :=
  Cert.Gcl.edgeK (gatherK h (wrapK (rowK ei))) (gatherK h (wrapK (colK ei))) (topK ew1) (botK ew1) (rowB eb1) ew2 (rowB eb2)

/-- The updated node features as a function of the arguments and of the edge messages. -/
def outOf (h : FVec Ideal S50000x128 .f32) (ei : IVec S2x600000 32) (mij : FVec Ideal S600000x128 .f32) (nw1 : FVec Ideal S256x128 .f32)
    (nb1 : FVec Ideal S128 .f32) (nw2 : FVec Ideal S128x128 .f32) (nb2 : FVec Ideal S128 .f32) : FVec Ideal S50000x128 .f32 :=
  Cert.Gcl.nodeK h (aggK (rowK ei) mij) (topK nw1) (botK nw1) (rowB nb1) nw2 (rowB nb2)

/-- Region 0's output array is the edge messages of the arguments. -/
theorem edge_array (c : Dev nD) (hi : InRange (m ((c : Thread nD τ).loc main_arg1))) :
    (dat0 (V4 m ρ) c).arrAt 7 cfg0.N
      = mijOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [edge_final (V4 m ρ) c, V4_v4, V4_v5, V4_v6, V4_v7, V4_v8, V4_arg4, V4_v9,
    takeK_eq_gatherK _ _ (rowK_inRange _ hi), takeK_eq_gatherK _ _ (colK_inRange _ hi)]
  rfl

/-- The second result buffer ends at the edge messages. -/
theorem kernel_mij (c : Dev nD) (hi : InRange (m ((c : Thread nD τ).loc main_arg1))) :
    W7 m ρ c (Proc.devRef .tc main_v10)
      = mijOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (W7_v10 m ρ c).trans (edge_array m ρ c hi)

/-- The first result buffer ends at the updated node features. -/
theorem kernel_out (c : Dev nD) (hi : InRange (m ((c : Thread nD τ).loc main_arg1))) :
    W7 m ρ c (Proc.devRef .tc main_v20)
      = outOf (m ((c : Thread nD τ).loc main_arg0)) (m ((c : Thread nD τ).loc main_arg1))
          (mijOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)))
          (m ((c : Thread nD τ).loc main_arg6)) (m ((c : Thread nD τ).loc main_arg7)) (m ((c : Thread nD τ).loc main_arg8))
          (m ((c : Thread nD τ).loc main_arg9)) := by
  rw [W7_v20, node_final (V6 m ρ) c, V6_arg0, V6_v15, V6_v16, V6_v17, V6_v18, V6_arg8, V6_v19, edge_array m ρ c hi]
  rfl

end Cert.KernelIdeal.KValue

end
-- ==== Proof.RefValue.lean ====
/- The reference's two results, entry by entry, as the layer's functions of the arguments: the edge message at (e, j)
   is silu of the two-layer perceptron at the gathered rows h[row e], h[col e]; the node result at (n, j) is h[n, j] plus
   the perceptron at h[n] and the aggregate's row n. Each 256-term contraction of a joined row [a, b] against a 256×128
   matrix is read as the contraction of a against rows 0–127 plus that of b against rows 128–255; the gathers and the
   scatter-sum are kept as whole arrays. -/
import proofs.«425308_j21560735826060_1_alg».proof.Proof.Gen.ReferenceIdeal.Read
import proofs.«425308_j21560735826060_1_alg».proof.Proof.KTerms
import proofs.«425308_j21560735826060_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open Cert.KernelIdeal.Terms (rowK colK gatherK wrapK topK botK rowB aggK)

/-! ## Scalars, the halves of a 256×128 matrix, a bias row -/

/-- x · (1 / (1 + e^(-x))), with the two ones written as the f32 word of 1, is silu x. -/
theorem silu_chain (x : EReal) :
    x * Ideal.div (Ideal.ofBits .f32 0x3F800000#32) (Ideal.ofBits .f32 0x3F800000#32 + Ideal.exp (-x)) = Cert.Gcl.silu x := by
  rw [Ideal.ofBits_one_f32]; rfl

/-- Entry (i, q) of the top half is entry (i, q) of the matrix. -/
theorem topK_at (w : FVec Ideal S256x128 .f32) (i q : Fin 128) :
    topK w (ix2 (n0 := 128) (n1 := 128) i q) = w (ix2 (n0 := 256) (n1 := 128) ⟨i.val, by omega⟩ q) := by
  unfold topK
  exact extractStridedSlice_apply _ w _ _ _ (fun a => match a with
    | ⟨0, _⟩ => by show i.val = 0 + i.val; omega
    | ⟨1, _⟩ => by show q.val = 0 + q.val; omega)

/-- Entry (i, q) of the bottom half is entry (128 + i, q) of the matrix. -/
theorem botK_at (w : FVec Ideal S256x128 .f32) (i q : Fin 128) :
    botK w (ix2 (n0 := 128) (n1 := 128) i q) = w (ix2 (n0 := 256) (n1 := 128) ⟨128 + i.val, by omega⟩ q) := by
  unfold botK
  exact extractStridedSlice_apply _ w _ _ _ (fun a => match a with
    | ⟨0, _⟩ => by show 128 + i.val = 128 + i.val; omega
    | ⟨1, _⟩ => by show q.val = 0 + q.val; omega)

/-- Entry (0, q) of a bias written as a 1×128 row is entry q of the bias. -/
theorem rowB_at (b : FVec Ideal S128 .f32) (q : Fin 128) :
    rowB b (ix2 (n0 := 1) (n1 := 128) 0 q) = b (ix1 (n := 128) q) := by
  unfold rowB
  exact shapeCast_apply b _ _ _ (by
    rewrite [Shape.rowMajor_val_two, Shape.rowMajor_val_one]
    show q.val = 0 * 128 + q.val; omega)

/-- A 256-term contraction against a 256×128 matrix, of a row whose first 128 entries are a and last 128 are b, is
    the contraction of a against the top half plus that of b against the bottom half. -/
theorem pre_split (c : Fin 256 → EReal) (w : FVec Ideal S256x128 .f32) (a b : Fin 128 → EReal) (q : Fin 128)
    (ha : ∀ i : Fin 128, c ⟨i.val, by omega⟩ = a i) (hb : ∀ i : Fin 128, c ⟨128 + i.val, by omega⟩ = b i) :
    ∑ k : Fin 256, c k * w (ix2 (n0 := 256) (n1 := 128) k q)
      = (∑ i : Fin 128, a i * topK w (ix2 (n0 := 128) (n1 := 128) i q))
        + ∑ i : Fin 128, b i * botK w (ix2 (n0 := 128) (n1 := 128) i q) := by
  rw [Cert.Gcl.sum_fin256]
  congr 1
  · exact Finset.sum_congr rfl fun i _ => by rw [ha, topK_at]
  · exact Finset.sum_congr rfl fun i _ => by rw [hb, botK_at]

/-! ## Two n×128 arrays joined along the columns -/

/-- Column k < 128 of the joined array is column k of the left piece. -/
theorem cat_left {α : Type} {n : Nat} (a b : (⟨2, ![n, 128]⟩ : Shape).Idx → α)
    (h : Shape.Concatenates [(⟨2, ![n, 128]⟩ : Shape), ⟨2, ![n, 128]⟩] ⟨2, ![n, 256]⟩ 1) (p : Fin n) (k : Fin 128) :
    concatenate (⟨2, ![n, 256]⟩ : Shape) 1 [⟨⟨2, ![n, 128]⟩, a⟩, ⟨⟨2, ![n, 128]⟩, b⟩] h
        (ix2 (n0 := n) (n1 := 256) p ⟨k.val, by omega⟩) = a (ix2 (n0 := n) (n1 := 128) p k) :=
  concatenate_pair_apply_left 1 a b h _ rfl (ix2 (n0 := n) (n1 := 128) p k)
    (fun c => match c with | ⟨0, _⟩ => rfl | ⟨1, _⟩ => rfl)

/-- Column 128 + k of the joined array is column k of the right piece. -/
theorem cat_right {α : Type} {n : Nat} (a b : (⟨2, ![n, 128]⟩ : Shape).Idx → α)
    (h : Shape.Concatenates [(⟨2, ![n, 128]⟩ : Shape), ⟨2, ![n, 128]⟩] ⟨2, ![n, 256]⟩ 1) (p : Fin n) (k : Fin 128) :
    concatenate (⟨2, ![n, 256]⟩ : Shape) 1 [⟨⟨2, ![n, 128]⟩, a⟩, ⟨⟨2, ![n, 128]⟩, b⟩] h
        (ix2 (n0 := n) (n1 := 256) p ⟨128 + k.val, by omega⟩) = b (ix2 (n0 := n) (n1 := 128) p k) :=
  concatenate_pair_apply_right 1 a b h _ rfl rfl (ix2 (n0 := n) (n1 := 128) p k)
    (fun c hc => match c, hc with
      | ⟨0, _⟩, _ => rfl
      | ⟨1, _⟩, hc => absurd rfl hc)
    (by show k.val + 128 = 128 + k.val; omega)

section Edge

variable (x0 : FVec Ideal S50000x128 .f32) (x1 : IVec S2x600000 32) (x2 : FVec Ideal S256x128 .f32) (x3 : FVec Ideal S128 .f32)
  (x4 : FVec Ideal S128x128 .f32) (x5 : FVec Ideal S128 .f32)

/-! ## The gathered rows and the aggregate, as whole arrays -/

/-- The first gather reads the table at the wrapped source ids. -/
theorem gather_row : val_main_v10 (F := Ideal) x0 x1 = gatherK x0 (wrapK (rowK x1)) := rfl

/-- The second gather reads the table at the wrapped target ids. -/
theorem gather_col : val_main_v17 (F := Ideal) x0 x1 = gatherK x0 (wrapK (colK x1)) := rfl

/-- The scatter-sum of the messages into their source nodes, over 1. -/
theorem agg_eq : val_main_v33 (F := Ideal) x0 x1 x2 x3 x4 x5
    = aggK (F := Ideal) (rowK x1) (val_main_v28 (F := Ideal) x0 x1 x2 x3 x4 x5) := rfl

/-! ## The edge perceptron, entry by entry -/

/-- The first contraction at (p, k): the row of the joined gathers against the 256×128 matrix, split at column 128. -/
theorem v19_at (p : Fin 600000) (k : Fin 128) :
    val_main_v19 (F := Ideal) x0 x1 x2 (ix2 (n0 := 600000) (n1 := 128) p k)
      = (∑ i : Fin 128, val_main_v10 (F := Ideal) x0 x1 (ix2 (n0 := 600000) (n1 := 128) p i) * topK x2 (ix2 (n0 := 128) (n1 := 128) i k))
        + ∑ i : Fin 128, val_main_v17 (F := Ideal) x0 x1 (ix2 (n0 := 600000) (n1 := 128) p i) * botK x2 (ix2 (n0 := 128) (n1 := 128) i k) := by
  rw [val_main_v19_apply]
  have el : ∀ k' : Fin 256, lidx_main_v19 (ix2 (n0 := 600000) (n1 := 128) p k) k' = ix2 (n0 := 600000) (n1 := 256) p k' :=
    fun k' => funext fun a => Fin.ext (by match a with | ⟨0, _⟩ => rfl | ⟨1, _⟩ => rfl)
  have er : ∀ k' : Fin 256, ridx_main_v19 (ix2 (n0 := 600000) (n1 := 128) p k) k' = ix2 (n0 := 256) (n1 := 128) k' k :=
    fun k' => funext fun a => Fin.ext (by match a with | ⟨0, _⟩ => rfl | ⟨1, _⟩ => rfl)
  refine Eq.trans (Finset.sum_congr rfl fun k' _ => by rw [el k', er k']) ?_
  exact pre_split (fun k' => val_main_v18 (F := Ideal) x0 x1 (ix2 (n0 := 600000) (n1 := 256) p k')) x2 _ _ k
    (fun i => cat_left (n := 600000) _ _ _ p i) (fun i => cat_right (n := 600000) _ _ _ p i)

/-- The first bias, broadcast down the rows, at (p, k). -/
theorem v21_at (p : Fin 600000) (k : Fin 128) :
    val_main_v21 (F := Ideal) x3 (ix2 (n0 := 600000) (n1 := 128) p k) = rowB x3 (ix2 (n0 := 1) (n1 := 128) 0 k) := by
  rw [val_main_v21_apply, val_main_v20_apply, rowB_at]
  exact congrArg x3 (funext fun a => Fin.ext (by match a with | ⟨0, _⟩ => rfl))

/-- The first activation is silu of the pre-activation, at every entry. -/
theorem v23_silu (i : S600000x128.Idx) :
    val_main_v23 (F := Ideal) x0 x1 x2 x3 i = Cert.Gcl.silu (val_main_v22 (F := Ideal) x0 x1 x2 x3 i) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply]
  exact silu_chain _

/-- Hidden unit k of edge p. -/
theorem v23_at (p : Fin 600000) (k : Fin 128) :
    val_main_v23 (F := Ideal) x0 x1 x2 x3 (ix2 (n0 := 600000) (n1 := 128) p k)
      = Cert.Gcl.hid (fun i => val_main_v10 (F := Ideal) x0 x1 (ix2 (n0 := 600000) (n1 := 128) p i))
          (fun i => val_main_v17 (F := Ideal) x0 x1 (ix2 (n0 := 600000) (n1 := 128) p i)) (topK x2) (botK x2) (rowB x3) k := by
  rw [v23_silu, val_main_v22_apply, v19_at, v21_at]
  rfl

/-- The second bias, broadcast down the rows, at (p, q). -/
theorem v26_at (p : Fin 600000) (q : Fin 128) :
    val_main_v26 (F := Ideal) x5 (ix2 (n0 := 600000) (n1 := 128) p q) = rowB x5 (ix2 (n0 := 1) (n1 := 128) 0 q) := by
  rw [val_main_v26_apply, val_main_v25_apply, rowB_at]
  exact congrArg x5 (funext fun a => Fin.ext (by match a with | ⟨0, _⟩ => rfl))

/-- Output q of the second layer for edge p. -/
theorem v27_at (p : Fin 600000) (q : Fin 128) :
    val_main_v27 (F := Ideal) x0 x1 x2 x3 x4 x5 (ix2 (n0 := 600000) (n1 := 128) p q)
      = Cert.Gcl.lin2 (fun i => val_main_v10 (F := Ideal) x0 x1 (ix2 (n0 := 600000) (n1 := 128) p i))
          (fun i => val_main_v17 (F := Ideal) x0 x1 (ix2 (n0 := 600000) (n1 := 128) p i)) (topK x2) (botK x2) (rowB x3) x4 (rowB x5) q := by
  rw [val_main_v27_apply, val_main_v24_apply, v26_at]
  have el : ∀ k : Fin 128, lidx_main_v24 (ix2 (n0 := 600000) (n1 := 128) p q) k = ix2 (n0 := 600000) (n1 := 128) p k :=
    fun k => funext fun a => Fin.ext (by match a with | ⟨0, _⟩ => rfl | ⟨1, _⟩ => rfl)
  have er : ∀ k : Fin 128, ridx_main_v24 (ix2 (n0 := 600000) (n1 := 128) p q) k = ix2 (n0 := 128) (n1 := 128) k q :=
    fun k => funext fun a => Fin.ext (by match a with | ⟨0, _⟩ => rfl | ⟨1, _⟩ => rfl)
  have es : (∑ k : Fin 128, val_main_v23 (F := Ideal) x0 x1 x2 x3 (lidx_main_v24 (ix2 (n0 := 600000) (n1 := 128) p q) k)
        * x4 (ridx_main_v24 (ix2 (n0 := 600000) (n1 := 128) p q) k))
      = ∑ k : Fin 128, Cert.Gcl.hid (fun i => val_main_v10 (F := Ideal) x0 x1 (ix2 (n0 := 600000) (n1 := 128) p i))
          (fun i => val_main_v17 (F := Ideal) x0 x1 (ix2 (n0 := 600000) (n1 := 128) p i)) (topK x2) (botK x2) (rowB x3) k
          * x4 (ix2 (n0 := 128) (n1 := 128) k q) :=
    Finset.sum_congr rfl fun k _ => by rw [el k, er k, v23_at]
  rw [es]
  rfl

/-- The message is silu of the second layer's output, at every entry. -/
theorem v28_silu (i : S600000x128.Idx) :
    val_main_v28 (F := Ideal) x0 x1 x2 x3 x4 x5 i = Cert.Gcl.silu (val_main_v27 (F := Ideal) x0 x1 x2 x3 x4 x5 i) := by
  rw [val_main_v28_apply, val_main_call1_v5_apply, val_main_call1_v4_apply, val_main_call1_cst_0_apply,
    val_main_call1_v3_apply, val_main_call1_v2_apply, val_main_call1_cst_apply, val_main_call1_v1_apply,
    val_main_call1_v0_apply]
  exact silu_chain _

end Edge

/-- The edge messages of the reference are the layer's edge function of the gathered rows and the weights. -/
theorem ref_mij (x0 : FVec Ideal S50000x128 .f32) (x1 : IVec S2x600000 32) (x2 : FVec Ideal S256x128 .f32) (x3 : FVec Ideal S128 .f32)
    (x4 : FVec Ideal S128x128 .f32) (x5 : FVec Ideal S128 .f32) :
    val_main_v28 (F := Ideal) x0 x1 x2 x3 x4 x5
      = Cert.Gcl.edgeK (gatherK x0 (wrapK (rowK x1))) (gatherK x0 (wrapK (colK x1))) (topK x2) (botK x2) (rowB x3) x4 (rowB x5) := by
  funext i
  obtain ⟨p, q, rfl⟩ : ∃ (p : Fin 600000) (q : Fin 128), i = ix2 p q := ⟨i 0, i 1, eq_ix2 i⟩
  rw [v28_silu, v27_at, gather_row, gather_col]
  rfl

section Node

variable (x0 : FVec Ideal S50000x128 .f32) (x1 : IVec S2x600000 32) (x2 : FVec Ideal S256x128 .f32) (x3 : FVec Ideal S128 .f32)
  (x4 : FVec Ideal S128x128 .f32) (x5 : FVec Ideal S128 .f32) (x6 : FVec Ideal S256x128 .f32) (x7 : FVec Ideal S128 .f32)
  (x8 : FVec Ideal S128x128 .f32) (x9 : FVec Ideal S128 .f32)

/-! ## The node perceptron, entry by entry -/

/-- The first contraction at (p, k): the row of the features joined with the aggregate against the 256×128 matrix,
    split at column 128. -/
theorem v35_at (p : Fin 50000) (k : Fin 128) :
    val_main_v35 (F := Ideal) x0 x1 x2 x3 x4 x5 x6 (ix2 (n0 := 50000) (n1 := 128) p k)
      = (∑ i : Fin 128, x0 (ix2 (n0 := 50000) (n1 := 128) p i) * topK x6 (ix2 (n0 := 128) (n1 := 128) i k))
        + ∑ i : Fin 128, val_main_v33 (F := Ideal) x0 x1 x2 x3 x4 x5 (ix2 (n0 := 50000) (n1 := 128) p i) * botK x6 (ix2 (n0 := 128) (n1 := 128) i k) := by
  rw [val_main_v35_apply]
  have el : ∀ k' : Fin 256, lidx_main_v35 (ix2 (n0 := 50000) (n1 := 128) p k) k' = ix2 (n0 := 50000) (n1 := 256) p k' :=
    fun k' => funext fun a => Fin.ext (by match a with | ⟨0, _⟩ => rfl | ⟨1, _⟩ => rfl)
  have er : ∀ k' : Fin 256, ridx_main_v35 (ix2 (n0 := 50000) (n1 := 128) p k) k' = ix2 (n0 := 256) (n1 := 128) k' k :=
    fun k' => funext fun a => Fin.ext (by match a with | ⟨0, _⟩ => rfl | ⟨1, _⟩ => rfl)
  refine Eq.trans (Finset.sum_congr rfl fun k' _ => by rw [el k', er k']) ?_
  exact pre_split (fun k' => val_main_v34 (F := Ideal) x0 x1 x2 x3 x4 x5 (ix2 (n0 := 50000) (n1 := 256) p k')) x6 _ _ k
    (fun i => cat_left (n := 50000) _ _ _ p i) (fun i => cat_right (n := 50000) _ _ _ p i)

/-- The first bias, broadcast down the rows, at (p, k). -/
theorem v37_at (p : Fin 50000) (k : Fin 128) :
    val_main_v37 (F := Ideal) x7 (ix2 (n0 := 50000) (n1 := 128) p k) = rowB x7 (ix2 (n0 := 1) (n1 := 128) 0 k) := by
  rw [val_main_v37_apply, val_main_v36_apply, rowB_at]
  exact congrArg x7 (funext fun a => Fin.ext (by match a with | ⟨0, _⟩ => rfl))

/-- The activation is silu of the pre-activation, at every entry. -/
theorem v39_silu (i : S50000x128.Idx) :
    val_main_v39 (F := Ideal) x0 x1 x2 x3 x4 x5 x6 x7 i = Cert.Gcl.silu (val_main_v38 (F := Ideal) x0 x1 x2 x3 x4 x5 x6 x7 i) := by
  rw [val_main_v39_apply, val_main_call2_v5_apply, val_main_call2_v4_apply, val_main_call2_cst_0_apply,
    val_main_call2_v3_apply, val_main_call2_v2_apply, val_main_call2_cst_apply, val_main_call2_v1_apply,
    val_main_call2_v0_apply]
  exact silu_chain _

/-- Hidden unit k of node p. -/
theorem v39_at (p : Fin 50000) (k : Fin 128) :
    val_main_v39 (F := Ideal) x0 x1 x2 x3 x4 x5 x6 x7 (ix2 (n0 := 50000) (n1 := 128) p k)
      = Cert.Gcl.hid (fun i => x0 (ix2 (n0 := 50000) (n1 := 128) p i))
          (fun i => val_main_v33 (F := Ideal) x0 x1 x2 x3 x4 x5 (ix2 (n0 := 50000) (n1 := 128) p i)) (topK x6) (botK x6) (rowB x7) k := by
  rw [v39_silu, val_main_v38_apply, v35_at, v37_at]
  rfl

/-- The second bias, broadcast down the rows, at (p, q). -/
theorem v42_at (p : Fin 50000) (q : Fin 128) :
    val_main_v42 (F := Ideal) x9 (ix2 (n0 := 50000) (n1 := 128) p q) = rowB x9 (ix2 (n0 := 1) (n1 := 128) 0 q) := by
  rw [val_main_v42_apply, val_main_v41_apply, rowB_at]
  exact congrArg x9 (funext fun a => Fin.ext (by match a with | ⟨0, _⟩ => rfl))

/-- Output q of the second layer for node p. -/
theorem v43_at (p : Fin 50000) (q : Fin 128) :
    val_main_v43 (F := Ideal) x0 x1 x2 x3 x4 x5 x6 x7 x8 x9 (ix2 (n0 := 50000) (n1 := 128) p q)
      = Cert.Gcl.lin2 (fun i => x0 (ix2 (n0 := 50000) (n1 := 128) p i))
          (fun i => val_main_v33 (F := Ideal) x0 x1 x2 x3 x4 x5 (ix2 (n0 := 50000) (n1 := 128) p i)) (topK x6) (botK x6) (rowB x7) x8 (rowB x9) q := by
  rw [val_main_v43_apply, val_main_v40_apply, v42_at]
  have el : ∀ k : Fin 128, lidx_main_v40 (ix2 (n0 := 50000) (n1 := 128) p q) k = ix2 (n0 := 50000) (n1 := 128) p k :=
    fun k => funext fun a => Fin.ext (by match a with | ⟨0, _⟩ => rfl | ⟨1, _⟩ => rfl)
  have er : ∀ k : Fin 128, ridx_main_v40 (ix2 (n0 := 50000) (n1 := 128) p q) k = ix2 (n0 := 128) (n1 := 128) k q :=
    fun k => funext fun a => Fin.ext (by match a with | ⟨0, _⟩ => rfl | ⟨1, _⟩ => rfl)
  have es : (∑ k : Fin 128, val_main_v39 (F := Ideal) x0 x1 x2 x3 x4 x5 x6 x7 (lidx_main_v40 (ix2 (n0 := 50000) (n1 := 128) p q) k)
        * x8 (ridx_main_v40 (ix2 (n0 := 50000) (n1 := 128) p q) k))
      = ∑ k : Fin 128, Cert.Gcl.hid (fun i => x0 (ix2 (n0 := 50000) (n1 := 128) p i))
          (fun i => val_main_v33 (F := Ideal) x0 x1 x2 x3 x4 x5 (ix2 (n0 := 50000) (n1 := 128) p i)) (topK x6) (botK x6) (rowB x7) k
          * x8 (ix2 (n0 := 128) (n1 := 128) k q) :=
    Finset.sum_congr rfl fun k _ => by rw [el k, er k, v39_at]
  rw [es]
  rfl

end Node

/-- The reference's result is the layer's node function of the features, the aggregate of the messages, and the weights. -/
theorem ref_out (x0 : FVec Ideal S50000x128 .f32) (x1 : IVec S2x600000 32) (x2 : FVec Ideal S256x128 .f32) (x3 : FVec Ideal S128 .f32)
    (x4 : FVec Ideal S128x128 .f32) (x5 : FVec Ideal S128 .f32) (x6 : FVec Ideal S256x128 .f32) (x7 : FVec Ideal S128 .f32)
    (x8 : FVec Ideal S128x128 .f32) (x9 : FVec Ideal S128 .f32) :
    val_main_v44 (F := Ideal) x0 x1 x2 x3 x4 x5 x6 x7 x8 x9
      = Cert.Gcl.nodeK x0 (aggK (rowK x1) (val_main_v28 (F := Ideal) x0 x1 x2 x3 x4 x5)) (topK x6) (botK x6) (rowB x7) x8 (rowB x9) := by
  funext i
  obtain ⟨p, q, rfl⟩ : ∃ (p : Fin 50000) (q : Fin 128), i = ix2 p q := ⟨i 0, i 1, eq_ix2 i⟩
  rw [val_main_v44_apply, v43_at, agg_eq]
  rfl

end Cert.ReferenceIdeal.RefValue

end
-- ==== Proof.lean ====
/-
  One graph-convolution layer: the Pallas kernel against its jnp reference, over the extended reals.

  Both programs compute, for every edge `e` with source `row e` and target `col e`,
      mij[e] = silu (silu ([h[row e], h[col e]] · ew1 + eb1) · ew2 + eb2),
  then  agg = Σ_{e : row e = n} mij[e]  (over the normalisation factor 1), and for every node `n`
      h_out[n] = h[n] + (silu ([h[n], agg[n]] · nw1 + nb1) · nw2 + nb2),        silu x = x · σ(x).
  The kernel applies each 256×128 first-layer matrix as its two 128×128 halves to the two 128-wide inputs and adds the
  products; the reference concatenates the inputs and contracts over all 256 indices at once. A sum over 256 indices IS
  the sum over its first 128 plus the sum over its last 128 (addition of extended reals is commutative and associative:
  no finiteness is used), so the two agree entry by entry. Changes of float format are the identity at this instance, and
  the kernel's logistic and the reference's `1 / (1 + exp (-x))` are one function.
  The kernel gathers the feature rows with jnp.take, which fills a row whose id is out of range; the reference's
  indexing clamps such an id. The precondition's last conjunct says every entry of the edge list is a node id,
  `0 ≤ id < 50000`, and under it the fill never applies: both gathers read the same rows.
  The frames of the two kernel programs are the generated ones; the reference's is its run with the results dropped.
-/
import proofs.«425308_j21560735826060_1_alg».proof.Defs
import proofs.«425308_j21560735826060_1_alg».proof.Proof.Gen.Kernel
import proofs.«425308_j21560735826060_1_alg».proof.Proof.Gen.Kernel.Skeleton
import proofs.«425308_j21560735826060_1_alg».proof.Proof.Gen.Kernel.Launch
import proofs.«425308_j21560735826060_1_alg».proof.Proof.Gen.Kernel.Points
import proofs.«425308_j21560735826060_1_alg».proof.Proof.Gen.Kernel.Frame
import proofs.«425308_j21560735826060_1_alg».proof.Proof.Gen.KernelIdeal
import proofs.«425308_j21560735826060_1_alg».proof.Proof.Gen.KernelIdeal.Skeleton
import proofs.«425308_j21560735826060_1_alg».proof.Proof.Gen.KernelIdeal.Launch
import proofs.«425308_j21560735826060_1_alg».proof.Proof.Gen.KernelIdeal.Points
import proofs.«425308_j21560735826060_1_alg».proof.Proof.Gen.KernelIdeal.Frame
import proofs.«425308_j21560735826060_1_alg».proof.Proof.Gen.ReferenceIdeal
import proofs.«425308_j21560735826060_1_alg».proof.Proof.Gen.Pre_finite_inputs
import proofs.«425308_j21560735826060_1_alg».proof.Proof.Gen.ReferenceIdeal.Run
import proofs.«425308_j21560735826060_1_alg».proof.Proof.Gen.ReferenceIdeal.Read
import proofs.«425308_j21560735826060_1_alg».proof.Proof.KRun
import proofs.«425308_j21560735826060_1_alg».proof.Proof.KValue
import proofs.«425308_j21560735826060_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.KValue (mijOf outOf kernel_mij kernel_out)

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs end with the updated node features `outOf` and the edge messages `mijOf` of the (shared) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hi := Cert.KernelIdeal.PreRange.inRange_of_pre m hpre
  refine ⟨fun c => outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (mijOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => mijOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (kernel_out m ρ c (hi c)), (h c).2.1.trans (kernel_mij m ρ c (hi c)), (h c).2.2⟩)
      (Cert.KernelIdeal.Named.run_named m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9⟩ := hagree c
      rw [Cert.ReferenceIdeal.Read.val_main_v44_eq, Cert.ReferenceIdeal.RefValue.ref_out, Cert.ReferenceIdeal.RefValue.ref_mij,
        e0, e1, e2, e3, e4, e5, e6, e7, e8, e9]
      rfl
    · obtain ⟨e0, e1, e2, e3, e4, e5, -⟩ := hagree c
      rw [Cert.ReferenceIdeal.Read.val_main_v28_eq, Cert.ReferenceIdeal.RefValue.ref_mij, e0, e1, e2, e3, e4, e5]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
